-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S64x1048576 : S_.BroadcastsInDim S64x1048576 (![] : Fin 0 → Fin S64x1048576.rank)
  reducesTo_S64x1048576_S_d0_1 : S64x1048576.ReducesTo [0, 1] S_
  bcast_S_S64 : S_.BroadcastsInDim S64 (![] : Fin 0 → Fin S64.rank)
  reducesTo_S64_S_d0 : S64.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S8x64 .f32) (main_arg1 : FVec F S64x1048576 .f32) (main_arg2 : FVec F S64 .f32) (main_arg3 : FVec F S1048576 .f32) : IVec S_ 1 :=
  let main_v0 : FVec F S8x64 .f32 := Host.absf main_arg0
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_v4 : FVec F S64x1048576 .f32 := Host.absf main_arg1
  let main_cst_0 : FVec F S_ .f32 := constant S_ .f32 0x7F800000#32
  let main_v5 : FVec F S64x1048576 .f32 := broadcastInDim S64x1048576 ![] bcast_S_S64x1048576 main_cst_0
  let main_v6 : IVec S64x1048576 1 := cmpf .olt main_v4 main_v5
  let main_c_1 : IVec S_ 1 := constantI S_ 1 1#1
  let main_v7 : IVec S_ 1 := (fun x v => Host.reduce IntOp.andi x v reducesTo_S64x1048576_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S1x64 : Shape := ⟨2, ![1, 64]⟩
abbrev S1x1048576 : Shape := ⟨2, ![1, 1048576]⟩
abbrev S8x1048576 : Shape := ⟨2, ![8, 1048576]⟩
abbrev S64x32768 : Shape := ⟨2, ![64, 32768]⟩
abbrev S1x32768 : Shape := ⟨2, ![1, 32768]⟩
abbrev S8x32768 : Shape := ⟨2, ![8, 32768]⟩
abbrev S8x4x64x64x64 : Shape := ⟨5, ![8, 4, 64, 64, 64]⟩
abbrev S8x4x128x128x128 : Shape := ⟨5, ![8, 4, 128, 128, 128]⟩
abbrev S1x1x64x64x64 : Shape := ⟨5, ![1, 1, 64, 64, 64]⟩
abbrev S1x1x128x128x128 : Shape := ⟨5, ![1, 1, 128, 128, 128]⟩
abbrev S128x128x128 : Shape := ⟨3, ![128, 128, 128]⟩
abbrev S1x1x32x64x64 : Shape := ⟨5, ![1, 1, 32, 64, 64]⟩
abbrev S32x64x64 : Shape := ⟨3, ![32, 64, 64]⟩

abbrev nBuf : Space → Nat
  | .hbm => 11
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S64x1048576, .f32⟩
  | .hbm, ⟨2, _⟩ => ⟨S64, .f32⟩
  | .hbm, ⟨3, _⟩ => ⟨S1048576, .f32⟩
  | .hbm, ⟨4, _⟩ => ⟨S1x64, .f32⟩
  | .hbm, ⟨5, _⟩ => ⟨S8x64, .f32⟩
  | .hbm, ⟨6, _⟩ => ⟨S8x64, .f32⟩
  | .hbm, ⟨7, _⟩ => ⟨S1x1048576, .f32⟩
  | .hbm, ⟨8, _⟩ => ⟨S8x1048576, .f32⟩
  | .hbm, ⟨9, _⟩ => ⟨S8x4x64x64x64, .f32⟩
  | .hbm, ⟨10, _⟩ => ⟨S8x4x128x128x128, .f32⟩
  | .local _ .vmem, ⟨0, _⟩ => ⟨S8x64, .f32⟩
  | .local _ .vmem, ⟨1, _⟩ => ⟨S64x32768, .f32⟩
  | .local _ .vmem, ⟨2, _⟩ => ⟨S64x32768, .f32⟩
  | .local _ .vmem, ⟨3, _⟩ => ⟨S1x32768, .f32⟩
  | .local _ .vmem, ⟨4, _⟩ => ⟨S1x32768, .f32⟩
  | .local _ .vmem, ⟨5, _⟩ => ⟨S8x32768, .f32⟩
  | .local _ .vmem, ⟨6, _⟩ => ⟨S8x32768, .f32⟩
  | .local _ .vmem, ⟨7, _⟩ => ⟨S1x1x64x64x64, .f32⟩
  | .local _ .vmem, ⟨8, _⟩ => ⟨S1x1x64x64x64, .f32⟩
  | .local _ .vmem, ⟨9, _⟩ => ⟨S1x1x128x128x128, .f32⟩
  | .local _ .vmem, ⟨10, _⟩ => ⟨S1x1x128x128x128, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x1x64x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  shapeCasts_S1048576_S1x1048576 : S1048576.ShapeCasts S1x1048576
  inb_S8x64_S8x64_0_0 : ∀ a, (![0, 0] : Fin 2 → Nat) a + S8x64.size a ≤ S8x64.size a
  h_S8x64 : 0 < S8x64.numel
  shapeCasts_S8x64_S8x64 : S8x64.ShapeCasts S8x64
  bitsLt_bf16_f32 : FTy.bits .bf16 < FTy.bits .f32
  inb_S64x32768_S64x32768_0_0 : ∀ a, (![0, 0] : Fin 2 → Nat) a + S64x32768.size a ≤ S64x32768.size a
  h_S64x32768 : 0 < S64x32768.numel
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S1x32768_S8x32768 : S1x32768.Broadcasts S8x32768
  inb_S8x32768_S8x32768_0_0 : ∀ a, (![0, 0] : Fin 2 → Nat) a + S8x32768.size a ≤ S8x32768.size a
  h_S8x32768 : 0 < S8x32768.numel
  shapeCasts_S8x1048576_S8x4x64x64x64 : S8x1048576.ShapeCasts S8x4x64x64x64
  inb_S1x1x128x128x128_S1x1x128x128x128_0_0_0_0_0 : ∀ a, (![0, 0, 0, 0, 0] : Fin 5 → Nat) a + S1x1x128x128x128.size a ≤ S1x1x128x128x128.size a
  h_S1x1x128x128x128 : 0 < S1x1x128x128x128.numel
  shapeCasts_S1x1x128x128x128_S128x128x128 : S1x1x128x128x128.ShapeCasts S128x128x128
  shapeCasts_S128x128x128_S1x1x128x128x128 : S128x128x128.ShapeCasts S1x1x128x128x128
  inb_S1x1x64x64x64_S1x1x32x64x64_0_0_0_0_0 : ∀ a, (![0, 0, 0, 0, 0] : Fin 5 → Nat) a + S1x1x32x64x64.size a ≤ S1x1x64x64x64.size a
  h_S1x1x32x64x64 : 0 < S1x1x32x64x64.numel
  shapeCasts_S1x1x32x64x64_S32x64x64 : S1x1x32x64x64.ShapeCasts S32x64x64
  inb_S1x1x128x128x128_S1x1x32x64x64_0_0_0_32_32 : ∀ a, (![0, 0, 0, 32, 32] : Fin 5 → Nat) a + S1x1x32x64x64.size a ≤ S1x1x128x128x128.size a
  shapeCasts_S32x64x64_S1x1x32x64x64 : S32x64x64.ShapeCasts S1x1x32x64x64
  inb_S1x1x64x64x64_S1x1x32x64x64_0_0_32_0_0 : ∀ a, (![0, 0, 32, 0, 0] : Fin 5 → Nat) a + S1x1x32x64x64.size a ≤ S1x1x64x64x64.size a
  inb_S1x1x128x128x128_S1x1x32x64x64_0_0_96_32_32 : ∀ a, (![0, 0, 96, 32, 32] : Fin 5 → Nat) a + S1x1x32x64x64.size a ≤ S1x1x128x128x128.size a
  dot_S8x64_S64x32768_S8x32768_1_0_0_1_n_n_wf : DotDims.WF S8x64 S64x32768 S8x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x64.size a ≤ S8x64.size a
  hwx0_0 : ∀ i : grid0.Coords, EltTy.bits .f32 = 32 ∨ (Rect.block (s := S8x64) S8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32768.size a ≤ S64x1048576.size a
  hwx0_1 : ∀ i : grid0.Coords, EltTy.bits .f32 = 32 ∨ (Rect.block (s := S64x1048576) S64x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x1048576.size a
  hwx0_2 : ∀ i : grid0.Coords, EltTy.bits .f32 = 32 ∨ (Rect.block (s := S1x1048576) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S8x1048576.size a
  hwx0_3 : ∀ i : grid0.Coords, EltTy.bits .f32 = 32 ∨ (Rect.block (s := S8x1048576) S8x32768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x64x64x64.size a ≤ S8x4x64x64x64.size a
  hwx1_0 : ∀ i : grid1.Coords, EltTy.bits .f32 = 32 ∨ (Rect.block (s := S8x4x64x64x64) S1x1x64x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x128x128.size a ≤ S8x4x128x128x128.size a
  hwx1_1 : ∀ i : grid1.Coords, EltTy.bits .f32 = 32 ∨ (Rect.block (s := S8x4x128x128x128) S1x1x128x128x128.size (cc1_transform_1 i) (hinb1_1 i)).WholeWords (EltTy.packing .f32)

variable [Facts₀]

def dot_S8x64_S64x32768_S8x32768_1_0_0_1_n_n : DotDims S8x64 S64x32768 S8x32768 where
  lhsContracting := [1]
  rhsContracting := [0]
  lhsNonContracting := [0]
  rhsNonContracting := [1]
  lhsBatch := []
  rhsBatch := []
  wf := dot_S8x64_S64x32768_S8x32768_1_0_0_1_n_n_wf

abbrev win0_0 : Pipeline.Window sig grid0 :=
  Pipeline.Window.ofSpec (Memref.whole main_v2) S8x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1x64x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x128x128x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S1x64 : Shape := ⟨2, ![1, 64]⟩
abbrev S8x1048576 : Shape := ⟨2, ![8, 1048576]⟩
abbrev S1x1048576 : Shape := ⟨2, ![1, 1048576]⟩
abbrev S8x4x64x64x64 : Shape := ⟨5, ![8, 4, 64, 64, 64]⟩
abbrev S_ : Shape := ⟨0, ![]⟩
abbrev S8x4x128x128x128 : Shape := ⟨5, ![8, 4, 128, 128, 128]⟩
abbrev S8x4x32x64x64 : Shape := ⟨5, ![8, 4, 32, 64, 64]⟩
abbrev S1 : Shape := ⟨1, ![1]⟩
abbrev S3 : Shape := ⟨1, ![3]⟩

abbrev nBuf : Space → Nat
  | .hbm => 32
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S64x1048576, .f32⟩
  | .hbm, ⟨2, _⟩ => ⟨S64, .f32⟩
  | .hbm, ⟨3, _⟩ => ⟨S1048576, .f32⟩
  | .hbm, ⟨4, _⟩ => ⟨S1x64, .f32⟩
  | .hbm, ⟨5, _⟩ => ⟨S8x64, .f32⟩
  | .hbm, ⟨6, _⟩ => ⟨S8x64, .f32⟩
  | .hbm, ⟨7, _⟩ => ⟨S8x1048576, .f32⟩
  | .hbm, ⟨8, _⟩ => ⟨S1x1048576, .f32⟩
  | .hbm, ⟨9, _⟩ => ⟨S8x1048576, .f32⟩
  | .hbm, ⟨10, _⟩ => ⟨S8x1048576, .f32⟩
  | .hbm, ⟨11, _⟩ => ⟨S8x4x64x64x64, .f32⟩
  | .hbm, ⟨12, _⟩ => ⟨S_, .f32⟩
  | .hbm, ⟨13, _⟩ => ⟨S8x4x128x128x128, .f32⟩
  | .hbm, ⟨14, _⟩ => ⟨S8x4x32x64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S3, .i32⟩
  | .hbm, ⟨22, _⟩ => ⟨S8x4x128x128x128, .f32⟩
  | .hbm, ⟨23, _⟩ => ⟨S8x4x32x64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S3, .i32⟩
  | .hbm, ⟨31, _⟩ => ⟨S8x4x128x128x128, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S1048576_S1x1048576_1 : S1048576.BroadcastsInDim S1x1048576 (![1] : Fin 1 → Fin S1x1048576.rank)
  bcast_S1x1048576_S8x1048576_0_1 : S1x1048576.BroadcastsInDim S8x1048576 (![0, 1] : Fin 2 → Fin S8x1048576.rank)
  shapeCasts_S8x1048576_S8x4x64x64x64 : S8x1048576.ShapeCasts S8x4x64x64x64
  bcast_S_S8x4x128x128x128 : S_.BroadcastsInDim S8x4x128x128x128 (![] : Fin 0 → Fin S8x4x128x128x128.rank)
  slices_S8x4x64x64x64_S8x4x32x64x64_0_0_0_0_0 : S8x4x64x64x64.Slices ![0, 0, 0, 0, 0] S8x4x32x64x64
  bcast_S_S1 : S_.BroadcastsInDim S1 (![] : Fin 0 → Fin S1.rank)
  concatenates_S1_S1_S1_S3_d0 : Shape.Concatenates [S1, S1, S1] S3 0
  slices_S8x4x64x64x64_S8x4x32x64x64_0_0_32_0_0 : S8x4x64x64x64.Slices ![0, 0, 32, 0, 0] S8x4x32x64x64
  dot_S8x64_S64x1048576_S8x1048576_1_0_0_1_n_n_wf : DotDims.WF S8x64 S64x1048576 S8x1048576 [1] [0] [0] [1] [] []
  scatter_S8x4x128x128x128_S3_S8x4x32x64x64_01234_n_234_0_wf : ScatterDims.WF S8x4x128x128x128 S3 S8x4x32x64x64 [0, 1, 2, 3, 4] [] [2, 3, 4] 0

variable [Facts₀]

def dot_S8x64_S64x1048576_S8x1048576_1_0_0_1_n_n : DotDims S8x64 S64x1048576 S8x1048576 where
  lhsContracting := [1]
  rhsContracting := [0]
  lhsNonContracting := [0]
  rhsNonContracting := [1]
  lhsBatch := []
  rhsBatch := []
  wf := dot_S8x64_S64x1048576_S8x1048576_1_0_0_1_n_n_wf
def scatter_S8x4x128x128x128_S3_S8x4x32x64x64_01234_n_234_0 : ScatterDims S8x4x128x128x128 S3 S8x4x32x64x64 where
  updateWindowDims := [0, 1, 2, 3, 4]
  insertedWindowDims := []
  scatterDimsToOperandDims := [2, 3, 4]
  indexVectorDim := 0
  wf := scatter_S8x4x128x128x128_S3_S8x4x32x64x64_01234_n_234_0_wf

class Facts : Prop extends Facts₀ where

variable [Facts]
-- ==== Proof.ProjData.lean ====
/-
  Region 0 of the program: the projection (L ⊙ z) · U + mu, tiled along the long axis in 32 column tiles of width 32768.
  This module fixes what the region's proof speaks about: the tile of each operand that a grid point sees, the tile
  of the result the body leaves (its single store, over the skeleton's payload), and the per-core proof data of the
  pipeline — every input window keeps its tile, the output window holds the computed tile, nothing is owed.
-/
import proofs.«160098_j807453852263_1_alg».proof.Proof.Gen.KernelIdeal.Launch
import proofs.«160098_j807453852263_1_alg».proof.Proof.Gen.KernelIdeal.Skeleton
import proofs.«160098_j807453852263_1_alg».proof.Proof.Gen.KernelIdeal.Points
import Idealize.ShloMosaic.Lib.Pipeline.FrameBody
import Idealize.ShloMosaic.Lib.Pipeline.Frame

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the core's buffer contents when the region is entered
variable (V : (c : Dev nD) → (b : Ref sig .tc) → Buf (Elt F) ((c : Thread nD τ).loc b))

/-- The tile of window `w`'s array that grid point `t` sees, read off the array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the body reads and writes every buffer through its full rectangle. -/
abbrev rLz : Rect S8x64 := Rect.unit (s := S8x64) ![0, 0] S8x64.size inb_S8x64_S8x64_0_0
abbrev rU : Rect S64x32768 := Rect.unit (s := S64x32768) ![0, 0] S64x32768.size inb_S64x32768_S64x32768_0_0
abbrev rMu : Rect S1x32768 := Rect.unit (s := S1x32768) ![0, 0] S1x32768.size inb_S1x32768_S1x32768_0_0
abbrev rOut : Rect S8x32768 := Rect.unit (s := S8x32768) ![0, 0] S8x32768.size inb_S8x32768_S8x32768_0_0

/-- The result tile the body leaves: one store of the whole tile, its value the product of the scaled
    coefficients with the basis tile plus the offset row (the skeleton's payload). -/
def outTile (x0 : Vec F S8x64 .f32) (x1 : Vec F S64x32768 .f32) (x2 : Vec F S1x32768 .f32) : Vec F S8x32768 .f32 :=
  View.canon [⟨rOut, k0_pay1 (View.ld x0 rLz) (View.ld x1 rU) (View.ld x2 rMu)⟩]

/-- The one store covers the tile. -/
theorem outTile_cover (p0 : Vec F S8x32768 .f32) (y : S8x32768.Idx) :
    ∃ pc ∈ ([⟨rOut, p0⟩] : List (View.Piece (Elt F) S8x32768 .f32)), y ∈ pc.1.set :=
  View.cover_of_tiled [⟨rOut, p0⟩] S8x32768.size (by rfl) y

/-- The pipeline's proof data on core `c`: arrays as the region finds them; after the body each input buffer
    still holds its tile and the output buffer the computed tile; the invariant is the untouched rest. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) :
    (dat V c).after 3 t = outTile (tile V c 0 t) (tile V c 1 t) (tile V c 2 t) := by dsimp only [dat]

end Cert.KernelIdeal.Proj

end
-- ==== Proof.ProjBody.lean ====
/-
  Region 0, the body at a grid point. The body reads the three input tiles through their whole staging buffers,
  reads (and ignores) the output buffer, and stores the computed tile over the whole output buffer. So from the
  inputs' buffers at their tiles and the output's at anything, it ends with the inputs' untouched and the output's
  at `outTile` of the three tiles — at every point alike, since an input buffer holds its tile whether or not the
  pipeline fetched it there (an unfetched window's tile index has not moved).
-/
import proofs.«160098_j807453852263_1_alg».proof.Proof.ProjData
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs: inputs held at read contents `x0 x1 x2`, the output at anything; it returns
    the inputs as they were and the output at `outTile x0 x1 x2`. -/
theorem sound_kernel (c : Dev nD) (E : Set ℕ) (i : grid0.Coords)
    (arg1 : Memref sig .tc .vmem S8x64 .f32) (harg1 : arg1.IsWhole) (arg2 : Memref sig .tc .vmem S64x32768 .f32) (harg2 : arg2.IsWhole)
    (arg3 : Memref sig .tc .vmem S1x32768 .f32) (harg3 : arg3.IsWhole) (arg4 : Memref sig .tc .vmem S8x32768 .f32) (harg4 : arg4.IsWhole)
    (x0 : Vec F S8x64 .f32) (x1 : Vec F S64x32768 .f32) (x2 : Vec F S1x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

/-- Each input's current staging buffer holds its tile at every point, fetched there or not. -/
theorem before_0 (c : Dev nD) (t : Fin cfg0.N) (d) : (dat V c).before 0 t d = tile V c 0 t :=
  ((dat V c).before_in_eq_fetched 0 rfl (fun _ => rfl) (fun _ _ _ => rfl)
      (fun t => by rw [after_0]; unfold Dat.blockOf tile; rw [dat_A]; try rfl) t d).trans
    (by unfold Dat.fetched Dat.blockOf tile; rw [dat_A]; try rfl)
theorem before_1 (c : Dev nD) (t : Fin cfg0.N) (d) : (dat V c).before 1 t d = tile V c 1 t :=
  ((dat V c).before_in_eq_fetched 1 rfl (fun _ => rfl) (fun _ _ _ => rfl)
      (fun t => by rw [after_1]; unfold Dat.blockOf tile; rw [dat_A]; try rfl) t d).trans
    (by unfold Dat.fetched Dat.blockOf tile; rw [dat_A]; try rfl)
theorem before_2 (c : Dev nD) (t : Fin cfg0.N) (d) : (dat V c).before 2 t d = tile V c 2 t :=
  ((dat V c).before_in_eq_fetched 2 rfl (fun _ => rfl) (fun _ _ _ => rfl)
      (fun t => by rw [after_2]; unfold Dat.blockOf tile; rw [dat_A]; try rfl) t d).trans
    (by unfold Dat.fetched Dat.blockOf tile; rw [dat_A]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their tiles, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.PadData.lean ====
/-
  Region 1 of the program: the block-pad. Grid point (b, c) takes the 64×64×64 block of the projected field and
  lays it into a 128×128×128 cube of zeros: its first 32 slabs at depth 0..31, its last 32 slabs at depth 96..127,
  rows and columns shifted by 32. This module fixes the region's proof data: the block a point sees, the cube the
  body leaves (three stores — zeros over the whole cube, then the two half-blocks — latest first), and the
  per-core data of the pipeline.
-/
import proofs.«160098_j807453852263_1_alg».proof.Proof.Gen.KernelIdeal.Launch
import proofs.«160098_j807453852263_1_alg».proof.Proof.Gen.KernelIdeal.Skeleton
import proofs.«160098_j807453852263_1_alg».proof.Proof.Gen.KernelIdeal.Points
import Idealize.ShloMosaic.Lib.Pipeline.FrameBody
import Idealize.ShloMosaic.Lib.Pipeline.Frame

set_option maxRecDepth 16384

noncomputable section

namespace Cert.KernelIdeal.Pad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the core's buffer contents when the region is entered
variable (V : (c : Dev nD) → (b : Ref sig .tc) → Buf (Elt F) ((c : Thread nD τ).loc b))

/-- The block of window `w`'s array that grid point `t` sees, read off the array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body touches: the whole cube; the lower and upper half of the input block; the two
    places in the cube the halves go to. -/
abbrev rCube : Rect S1x1x128x128x128 := Rect.unit (s := S1x1x128x128x128) ![0, 0, 0, 0, 0] S1x1x128x128x128.size inb_S1x1x128x128x128_S1x1x128x128x128_0_0_0_0_0
abbrev rLoIn : Rect S1x1x64x64x64 := Rect.unit (s := S1x1x64x64x64) ![0, 0, 0, 0, 0] S1x1x32x64x64.size inb_S1x1x64x64x64_S1x1x32x64x64_0_0_0_0_0
abbrev rHiIn : Rect S1x1x64x64x64 := Rect.unit (s := S1x1x64x64x64) ![0, 0, 32, 0, 0] S1x1x32x64x64.size inb_S1x1x64x64x64_S1x1x32x64x64_0_0_32_0_0
abbrev rLoOut : Rect S1x1x128x128x128 := Rect.unit (s := S1x1x128x128x128) ![0, 0, 0, 32, 32] S1x1x32x64x64.size inb_S1x1x128x128x128_S1x1x32x64x64_0_0_0_32_32
abbrev rHiOut : Rect S1x1x128x128x128 := Rect.unit (s := S1x1x128x128x128) ![0, 0, 96, 32, 32] S1x1x32x64x64.size inb_S1x1x128x128x128_S1x1x32x64x64_0_0_96_32_32

/-- The cube the body leaves, its three stores latest first: the upper half-block, the lower half-block, zeros. -/
def outCube (x0 : Vec F S1x1x64x64x64 .f32) : Vec F S1x1x128x128x128 .f32 :=
  View.canon [⟨rHiOut, k1_pay3 (View.ld x0 rHiIn)⟩, ⟨rLoOut, k1_pay2 (View.ld x0 rLoIn)⟩, ⟨rCube, k1_pay1⟩]

/-- The pipeline's proof data on core `c`: arrays as the region finds them; after the body the input buffer
    still holds its block and the output buffer the padded cube; the invariant is the untouched rest. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => outCube (tile V c 0 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = outCube (tile V c 0 t) := by dsimp only [dat]

end Cert.KernelIdeal.Pad

end
-- ==== Proof.PadBody.lean ====
/-
  Region 1, the body at a grid point. The body fills the output cube with zeros, then copies the lower half of the
  input block (slabs 0..31) to depth 0, rows and columns 32..95, and the upper half (slabs 32..63) to depth 96; the
  loads of the output buffer it makes before each store are ignored. The three stores, latest first, are what the
  cube holds afterwards (`outCube`): the first store covers the whole cube, so every entry is named.
-/
import proofs.«160098_j807453852263_1_alg».proof.Proof.PadData
import Idealize.ShloMosaic.Lib.Tactic

set_option maxRecDepth 16384

noncomputable section

namespace Cert.KernelIdeal.Pad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero fill is over the whole cube, so the three stores cover it. -/
theorem outCube_cover (p2 p1 : Vec F S1x1x32x64x64 .f32) (p0 : Vec F S1x1x128x128x128 .f32) (y : S1x1x128x128x128.Idx) :
    ∃ pc ∈ ([⟨rHiOut, p2⟩, ⟨rLoOut, p1⟩, ⟨rCube, p0⟩] : List (View.Piece (Elt F) S1x1x128x128x128 .f32)), y ∈ pc.1.set := by
  obtain ⟨pc, hmem, hy⟩ := View.cover_of_tiled [(⟨rCube, p0⟩ : View.Piece (Elt F) S1x1x128x128x128 .f32)] S1x1x128x128x128.size (by rfl) y
  exact ⟨pc, List.mem_cons_of_mem _ (List.mem_cons_of_mem _ hmem), hy⟩

set_option maxHeartbeats 1000000 in
/-- The body on whole staging memrefs: the input held at read contents `x0`, the output at anything; it returns the
    input as it was and the output at `outCube x0`. -/
theorem sound_kernel (c : Dev nD) (E : Set ℕ) (i : grid1.Coords)
    (arg2 : Memref sig .tc .vmem S1x1x64x64x64 .f32) (harg2 : arg2.IsWhole) (arg3 : Memref sig .tc .vmem S1x1x128x128x128 .f32) (harg3 : arg3.IsWhole)
    (x0 : Vec F S1x1x64x64x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outCube x0)) -∗ K ⟨⟩))
      ⊢ wp frame (wpE (defs₀ (F := F)) Variants.none c none) E (cc1__scatter_kernel i arg2 harg2 arg3 harg3) K := by
  simp only [cc1__scatter_kernel_eq_skeleton]; unfold cc1__scatter_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCube_cover _ _ _)

/-- The input's current staging buffer holds its block at every point. -/
theorem before_0 (c : Dev nD) (t : Fin cfg1.N) (d) : (dat V c).before 0 t d = tile V c 0 t :=
  ((dat V c).before_in_eq_fetched 0 rfl (fun _ => rfl) (fun _ _ _ => rfl)
      (fun t => by rw [after_0]; unfold Dat.blockOf tile; rw [dat_A]; try rfl) t d).trans
    (by unfold Dat.fetched Dat.blockOf tile; rw [dat_A]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's buffer holds its block, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (tile V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Pad

end
-- ==== Proof.Whole.lean ====
/-
  The whole program as a run: four host operations (the scaled coefficients L ⊙ z and the offset as a row), the
  projection region, one host reshape, the block-pad region. The buffer contents at each of the five boundaries
  are a fold from the launch memory: a host stretch applies its operations; a region leaves its arrays at what its
  write-backs made of them and every other buffer as entered. Each region is one segment of the run, entered from
  "every unscoped buffer at the boundary's contents, the generator register at some state, nothing owed" and left
  at the same over the next boundary's contents; its arrays are split out of the unscoped buffers at entry and put
  back at exit, the generator register rides through the invariant. The run's post: every unscoped buffer ends at
  the last boundary's contents — so each argument array ends as launched (no host operation and no region writes
  one), and the result array ends at what the block-pad region's write-backs left.
-/
import proofs.«160098_j807453852263_1_alg».proof.Proof.ProjBody
import proofs.«160098_j807453852263_1_alg».proof.Proof.PadBody
import proofs.«160098_j807453852263_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the five boundaries -/

/-- At launch. -/
abbrev at0 : Dev nD → Valuation τ sig (Elt F) := fun c b => m (c, b)
/-- After the first host stretch: the projection region's entry. -/
abbrev at1 : Dev nD → Valuation τ sig (Elt F) := fun c => StableHlo.after hostOps0 (at0 m c)
/-- The same read at the TensorCore's references. -/
abbrev ent0 : (c : Dev nD) → (b : Ref sig .tc) → Buf (Elt F) ((c : Thread nD τ).loc b) := fun c b => at1 m c b
/-- At the projection region's exit: its arrays at what the pipeline leaves, every other buffer as entered. -/
def at2 (c : Dev nD) : Valuation τ sig (Elt F) :=
  Pipeline.withArrays spec0 c (at1 m c) fun w => (Proj.dat (ent0 m) c).arrAt w cfg0.N
theorem at2_arr (c : Dev nD) (w : Fin cfg0.W) :
    at2 m c (Proc.devRef .tc (Pipeline.arrRef spec0 w)) = (Proj.dat (ent0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
abbrev ext0 : (c : Dev nD) → (b : Ref sig .tc) → Buf (Elt F) ((c : Thread nD τ).loc b) := fun c b => at2 m c b
theorem exit0_arr (c : Dev nD) (w : Fin cfg0.W) : (Proj.dat (ent0 m) c).arrAt w cfg0.N = ext0 m c (Pipeline.arrRef spec0 w) :=
  (at2_arr m c w).symm
theorem exit0_rest (c : Dev nD) : ∀ b, b ∉ Finset.univ.image (Pipeline.arrRef spec0) → ext0 m c b = ent0 m c b :=
  fun b hb => at2_of_ne m c b fun w e => hb (Finset.mem_image.mpr ⟨w, Finset.mem_univ _, e⟩)

/-- After the reshape: the block-pad region's entry. -/
abbrev at3 : Dev nD → Valuation τ sig (Elt F) := fun c => StableHlo.after hostOps1 (at2 m c)
abbrev ent1 : (c : Dev nD) → (b : Ref sig .tc) → Buf (Elt F) ((c : Thread nD τ).loc b) := fun c b => at3 m c b
/-- At the block-pad region's exit. -/
def at4 (c : Dev nD) : Valuation τ sig (Elt F) :=
  Pipeline.withArrays spec1 c (at3 m c) fun w => (Pad.dat (ent1 m) c).arrAt w cfg1.N
theorem at4_arr (c : Dev nD) (w : Fin cfg1.W) :
    at4 m c (Proc.devRef .tc (Pipeline.arrRef spec1 w)) = (Pad.dat (ent1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
abbrev ext1 : (c : Dev nD) → (b : Ref sig .tc) → Buf (Elt F) ((c : Thread nD τ).loc b) := fun c b => at4 m c b
theorem exit1_arr (c : Dev nD) (w : Fin cfg1.W) : (Pad.dat (ent1 m) c).arrAt w cfg1.N = ext1 m c (Pipeline.arrRef spec1 w) :=
  (at4_arr m c w).symm
theorem exit1_rest (c : Dev nD) : ∀ b, b ∉ Finset.univ.image (Pipeline.arrRef spec1) → ext1 m c b = ent1 m c b :=
  fun b hb => at4_of_ne m c b fun w e => hb (Finset.mem_image.mpr ⟨w, Finset.mem_univ _, e⟩)

/-! ## What the host stretches leave alone -/

theorem at1_of (c : Dev nD) (r : Ref sig .tc) (h : r ∉ hostOps0_W) : at1 m c r = at0 m c r :=
  StableHlo.after_of_writes_sub hostOps0 _ hostOps0_writes h
theorem at3_of (c : Dev nD) (r : Ref sig .tc) (h : r ∉ hostOps1_W) : at3 m c r = at2 m c r :=
  StableHlo.after_of_writes_sub hostOps1 _ hostOps1_writes h

/-! ## The arguments end as launched -/

theorem at4_main_arg0 (c : Dev nD) : at4 m c (Proc.devRef .tc main_arg0) = m ((c : Thread nD τ).loc main_arg0) :=
  (at4_of_ne m c main_arg0 (by decide)).trans <| (at3_of m c main_arg0 (by decide)).trans <|
    (at2_of_ne m c main_arg0 (by decide)).trans <| (at1_of m c main_arg0 (by decide)).trans rfl
/-- The basis is the projection region's second window, an input: its array is never written. -/
theorem at4_main_arg1 (c : Dev nD) : at4 m c (Proc.devRef .tc main_arg1) = m ((c : Thread nD τ).loc main_arg1) :=
  (at4_of_ne m c main_arg1 (by decide)).trans <| (at3_of m c main_arg1 (by decide)).trans <|
    ((at2_arr m c 1).trans (((Proj.dat (ent0 m) c).arrAt_in 1 rfl _).trans (Proj.dat_A (ent0 m) c 1))).trans <|
    (at1_of m c main_arg1 (by decide)).trans rfl
theorem at4_main_arg2 (c : Dev nD) : at4 m c (Proc.devRef .tc main_arg2) = m ((c : Thread nD τ).loc main_arg2) :=
  (at4_of_ne m c main_arg2 (by decide)).trans <| (at3_of m c main_arg2 (by decide)).trans <|
    (at2_of_ne m c main_arg2 (by decide)).trans <| (at1_of m c main_arg2 (by decide)).trans rfl
theorem at4_main_arg3 (c : Dev nD) : at4 m c (Proc.devRef .tc main_arg3) = m ((c : Thread nD τ).loc main_arg3) :=
  (at4_of_ne m c main_arg3 (by decide)).trans <| (at3_of m c main_arg3 (by decide)).trans <|
    (at2_of_ne m c main_arg3 (by decide)).trans <| (at1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (ent0 m) c
  | ⟨1, _⟩ => fun c => Pad.dat (ent1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (at4 m c) ∗ ∃ r, prngReg c r)

/-! ## The regions as segments -/

set_option backward.isDefEq.respectTransparency.types false in
/-- The projection region: entered from every unscoped buffer at `at1`, left at `at2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (ent0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The block-pad region: entered from every unscoped buffer at `at3`, left at `at4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pad.body_obligation (ent1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m c b)
    (hfin := fun c s' => by
      iintro ⟨⟨Hh, -⟩, HSI⟩
      unfold StableHlo.held
      imodintro
      iapply (pointsTo_read_all (Pipeline.ucRefs τ sig) (fun b => (((c : Thread nD τ)).1, b)) (at4 m c) s')
      isplitl [Hh] <;> iassumption)
    (hQ := fun s h => h)

/-- Each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (at4_main_arg0 m c),
     (h c _ (mem_uc main_arg1 (by decide))).trans (at4_main_arg1 m c),
     (h c _ (mem_uc main_arg2 (by decide))).trans (at4_main_arg2 m c),
     (h c _ (mem_uc main_arg3 (by decide))).trans (at4_main_arg3 m c)⟩) (run_all m ρ)

/-- The result array ends at what the block-pad region's write-backs left, beside the frame. -/
theorem run_result : θ_run defs (onTc (τ := τ) (main (F := F))) ⟨m, fun _ => 0, ρ⟩ (fun r => ∀ c : Dev nD,
      r.2.mem ((c.tc : Thread nD τ).loc main_v6) = (Pad.dat (ent1 m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (at4_arr m c 1),
     (h c _ (mem_uc main_arg0 (by decide))).trans (at4_main_arg0 m c),
     (h c _ (mem_uc main_arg1 (by decide))).trans (at4_main_arg1 m c),
     (h c _ (mem_uc main_arg2 (by decide))).trans (at4_main_arg2 m c),
     (h c _ (mem_uc main_arg3 (by decide))).trans (at4_main_arg3 m c)⟩) (run_all m ρ)

end Cert.KernelIdeal.Whole

end
-- ==== Proof.KernelProjData.lean ====
/-
  Region 0 of the program: the projection (L ⊙ z) · U + mu, tiled along the long axis in 32 column tiles of width 32768.
  This module fixes what the region's proof speaks about: the tile of each operand that a grid point sees, the tile
  of the result the body leaves (its single store, over the skeleton's payload), and the per-core proof data of the
  pipeline — every input window keeps its tile, the output window holds the computed tile, nothing is owed.
-/
import proofs.«160098_j807453852263_1_alg».proof.Proof.Gen.Kernel.Launch
import proofs.«160098_j807453852263_1_alg».proof.Proof.Gen.Kernel.Skeleton
import proofs.«160098_j807453852263_1_alg».proof.Proof.Gen.Kernel.Points
import Idealize.ShloMosaic.Lib.Pipeline.FrameBody
import Idealize.ShloMosaic.Lib.Pipeline.Frame

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the core's buffer contents when the region is entered
variable (V : (c : Dev nD) → (b : Ref sig .tc) → Buf (Elt F) ((c : Thread nD τ).loc b))

/-- The tile of window `w`'s array that grid point `t` sees, read off the array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the body reads and writes every buffer through its full rectangle. -/
abbrev rLz : Rect S8x64 := Rect.unit (s := S8x64) ![0, 0] S8x64.size inb_S8x64_S8x64_0_0
abbrev rU : Rect S64x32768 := Rect.unit (s := S64x32768) ![0, 0] S64x32768.size inb_S64x32768_S64x32768_0_0
abbrev rMu : Rect S1x32768 := Rect.unit (s := S1x32768) ![0, 0] S1x32768.size inb_S1x32768_S1x32768_0_0
abbrev rOut : Rect S8x32768 := Rect.unit (s := S8x32768) ![0, 0] S8x32768.size inb_S8x32768_S8x32768_0_0

/-- The result tile the body leaves: one store of the whole tile, its value the product of the scaled
    coefficients with the basis tile plus the offset row (the skeleton's payload). -/
def outTile (x0 : Vec F S8x64 .f32) (x1 : Vec F S64x32768 .f32) (x2 : Vec F S1x32768 .f32) : Vec F S8x32768 .f32 :=
  View.canon [⟨rOut, k0_pay1 (View.ld x0 rLz) (View.ld x1 rU) (View.ld x2 rMu)⟩]

/-- The one store covers the tile. -/
theorem outTile_cover (p0 : Vec F S8x32768 .f32) (y : S8x32768.Idx) :
    ∃ pc ∈ ([⟨rOut, p0⟩] : List (View.Piece (Elt F) S8x32768 .f32)), y ∈ pc.1.set :=
  View.cover_of_tiled [⟨rOut, p0⟩] S8x32768.size (by rfl) y

/-- The pipeline's proof data on core `c`: arrays as the region finds them; after the body each input buffer
    still holds its tile and the output buffer the computed tile; the invariant is the untouched rest. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) :
    (dat V c).after 3 t = outTile (tile V c 0 t) (tile V c 1 t) (tile V c 2 t) := by dsimp only [dat]

end Cert.Kernel.Proj

end
-- ==== Proof.KernelProjBody.lean ====
/-
  Region 0, the body at a grid point. The body reads the three input tiles through their whole staging buffers,
  reads (and ignores) the output buffer, and stores the computed tile over the whole output buffer. So from the
  inputs' buffers at their tiles and the output's at anything, it ends with the inputs' untouched and the output's
  at `outTile` of the three tiles — at every point alike, since an input buffer holds its tile whether or not the
  pipeline fetched it there (an unfetched window's tile index has not moved).
-/
import proofs.«160098_j807453852263_1_alg».proof.Proof.KernelProjData
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs: inputs held at read contents `x0 x1 x2`, the output at anything; it returns
    the inputs as they were and the output at `outTile x0 x1 x2`. -/
theorem sound_kernel (c : Dev nD) (E : Set ℕ) (i : grid0.Coords)
    (arg1 : Memref sig .tc .vmem S8x64 .f32) (harg1 : arg1.IsWhole) (arg2 : Memref sig .tc .vmem S64x32768 .f32) (harg2 : arg2.IsWhole)
    (arg3 : Memref sig .tc .vmem S1x32768 .f32) (harg3 : arg3.IsWhole) (arg4 : Memref sig .tc .vmem S8x32768 .f32) (harg4 : arg4.IsWhole)
    (x0 : Vec F S8x64 .f32) (x1 : Vec F S64x32768 .f32) (x2 : Vec F S1x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

/-- Each input's current staging buffer holds its tile at every point, fetched there or not. -/
theorem before_0 (c : Dev nD) (t : Fin cfg0.N) (d) : (dat V c).before 0 t d = tile V c 0 t :=
  ((dat V c).before_in_eq_fetched 0 rfl (fun _ => rfl) (fun _ _ _ => rfl)
      (fun t => by rw [after_0]; unfold Dat.blockOf tile; rw [dat_A]; try rfl) t d).trans
    (by unfold Dat.fetched Dat.blockOf tile; rw [dat_A]; try rfl)
theorem before_1 (c : Dev nD) (t : Fin cfg0.N) (d) : (dat V c).before 1 t d = tile V c 1 t :=
  ((dat V c).before_in_eq_fetched 1 rfl (fun _ => rfl) (fun _ _ _ => rfl)
      (fun t => by rw [after_1]; unfold Dat.blockOf tile; rw [dat_A]; try rfl) t d).trans
    (by unfold Dat.fetched Dat.blockOf tile; rw [dat_A]; try rfl)
theorem before_2 (c : Dev nD) (t : Fin cfg0.N) (d) : (dat V c).before 2 t d = tile V c 2 t :=
  ((dat V c).before_in_eq_fetched 2 rfl (fun _ => rfl) (fun _ _ _ => rfl)
      (fun t => by rw [after_2]; unfold Dat.blockOf tile; rw [dat_A]; try rfl) t d).trans
    (by unfold Dat.fetched Dat.blockOf tile; rw [dat_A]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their tiles, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.KernelPadData.lean ====
/-
  Region 1 of the program: the block-pad. Grid point (b, c) takes the 64×64×64 block of the projected field and
  lays it into a 128×128×128 cube of zeros: its first 32 slabs at depth 0..31, its last 32 slabs at depth 96..127,
  rows and columns shifted by 32. This module fixes the region's proof data: the block a point sees, the cube the
  body leaves (three stores — zeros over the whole cube, then the two half-blocks — latest first), and the
  per-core data of the pipeline.
-/
import proofs.«160098_j807453852263_1_alg».proof.Proof.Gen.Kernel.Launch
import proofs.«160098_j807453852263_1_alg».proof.Proof.Gen.Kernel.Skeleton
import proofs.«160098_j807453852263_1_alg».proof.Proof.Gen.Kernel.Points
import Idealize.ShloMosaic.Lib.Pipeline.FrameBody
import Idealize.ShloMosaic.Lib.Pipeline.Frame

set_option maxRecDepth 16384

noncomputable section

namespace Cert.Kernel.Pad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the core's buffer contents when the region is entered
variable (V : (c : Dev nD) → (b : Ref sig .tc) → Buf (Elt F) ((c : Thread nD τ).loc b))

/-- The block of window `w`'s array that grid point `t` sees, read off the array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body touches: the whole cube; the lower and upper half of the input block; the two
    places in the cube the halves go to. -/
abbrev rCube : Rect S1x1x128x128x128 := Rect.unit (s := S1x1x128x128x128) ![0, 0, 0, 0, 0] S1x1x128x128x128.size inb_S1x1x128x128x128_S1x1x128x128x128_0_0_0_0_0
abbrev rLoIn : Rect S1x1x64x64x64 := Rect.unit (s := S1x1x64x64x64) ![0, 0, 0, 0, 0] S1x1x32x64x64.size inb_S1x1x64x64x64_S1x1x32x64x64_0_0_0_0_0
abbrev rHiIn : Rect S1x1x64x64x64 := Rect.unit (s := S1x1x64x64x64) ![0, 0, 32, 0, 0] S1x1x32x64x64.size inb_S1x1x64x64x64_S1x1x32x64x64_0_0_32_0_0
abbrev rLoOut : Rect S1x1x128x128x128 := Rect.unit (s := S1x1x128x128x128) ![0, 0, 0, 32, 32] S1x1x32x64x64.size inb_S1x1x128x128x128_S1x1x32x64x64_0_0_0_32_32
abbrev rHiOut : Rect S1x1x128x128x128 := Rect.unit (s := S1x1x128x128x128) ![0, 0, 96, 32, 32] S1x1x32x64x64.size inb_S1x1x128x128x128_S1x1x32x64x64_0_0_96_32_32

/-- The cube the body leaves, its three stores latest first: the upper half-block, the lower half-block, zeros. -/
def outCube (x0 : Vec F S1x1x64x64x64 .f32) : Vec F S1x1x128x128x128 .f32 :=
  View.canon [⟨rHiOut, k1_pay3 (View.ld x0 rHiIn)⟩, ⟨rLoOut, k1_pay2 (View.ld x0 rLoIn)⟩, ⟨rCube, k1_pay1⟩]

/-- The pipeline's proof data on core `c`: arrays as the region finds them; after the body the input buffer
    still holds its block and the output buffer the padded cube; the invariant is the untouched rest. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => outCube (tile V c 0 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = outCube (tile V c 0 t) := by dsimp only [dat]

end Cert.Kernel.Pad

end
-- ==== Proof.KernelPadBody.lean ====
/-
  Region 1, the body at a grid point. The body fills the output cube with zeros, then copies the lower half of the
  input block (slabs 0..31) to depth 0, rows and columns 32..95, and the upper half (slabs 32..63) to depth 96; the
  loads of the output buffer it makes before each store are ignored. The three stores, latest first, are what the
  cube holds afterwards (`outCube`): the first store covers the whole cube, so every entry is named.
-/
import proofs.«160098_j807453852263_1_alg».proof.Proof.KernelPadData
import Idealize.ShloMosaic.Lib.Tactic

set_option maxRecDepth 16384

noncomputable section

namespace Cert.Kernel.Pad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero fill is over the whole cube, so the three stores cover it. -/
theorem outCube_cover (p2 p1 : Vec F S1x1x32x64x64 .f32) (p0 : Vec F S1x1x128x128x128 .f32) (y : S1x1x128x128x128.Idx) :
    ∃ pc ∈ ([⟨rHiOut, p2⟩, ⟨rLoOut, p1⟩, ⟨rCube, p0⟩] : List (View.Piece (Elt F) S1x1x128x128x128 .f32)), y ∈ pc.1.set := by
  obtain ⟨pc, hmem, hy⟩ := View.cover_of_tiled [(⟨rCube, p0⟩ : View.Piece (Elt F) S1x1x128x128x128 .f32)] S1x1x128x128x128.size (by rfl) y
  exact ⟨pc, List.mem_cons_of_mem _ (List.mem_cons_of_mem _ hmem), hy⟩

set_option maxHeartbeats 1000000 in
/-- The body on whole staging memrefs: the input held at read contents `x0`, the output at anything; it returns the
    input as it was and the output at `outCube x0`. -/
theorem sound_kernel (c : Dev nD) (E : Set ℕ) (i : grid1.Coords)
    (arg2 : Memref sig .tc .vmem S1x1x64x64x64 .f32) (harg2 : arg2.IsWhole) (arg3 : Memref sig .tc .vmem S1x1x128x128x128 .f32) (harg3 : arg3.IsWhole)
    (x0 : Vec F S1x1x64x64x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outCube x0)) -∗ K ⟨⟩))
      ⊢ wp frame (wpE (defs₀ (F := F)) Variants.none c none) E (cc1__scatter_kernel i arg2 harg2 arg3 harg3) K := by
  simp only [cc1__scatter_kernel_eq_skeleton]; unfold cc1__scatter_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outCube_cover _ _ _)

/-- The input's current staging buffer holds its block at every point. -/
theorem before_0 (c : Dev nD) (t : Fin cfg1.N) (d) : (dat V c).before 0 t d = tile V c 0 t :=
  ((dat V c).before_in_eq_fetched 0 rfl (fun _ => rfl) (fun _ _ _ => rfl)
      (fun t => by rw [after_0]; unfold Dat.blockOf tile; rw [dat_A]; try rfl) t d).trans
    (by unfold Dat.fetched Dat.blockOf tile; rw [dat_A]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's buffer holds its block, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (tile V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Pad

end
-- ==== Proof.KernelWhole.lean ====
/-
  The whole program as a run: four host operations (the scaled coefficients L ⊙ z and the offset as a row), the
  projection region, one host reshape, the block-pad region. The buffer contents at each of the five boundaries
  are a fold from the launch memory: a host stretch applies its operations; a region leaves its arrays at what its
  write-backs made of them and every other buffer as entered. Each region is one segment of the run, entered from
  "every unscoped buffer at the boundary's contents, the generator register at some state, nothing owed" and left
  at the same over the next boundary's contents; its arrays are split out of the unscoped buffers at entry and put
  back at exit, the generator register rides through the invariant. The run's post: every unscoped buffer ends at
  the last boundary's contents — so each argument array ends as launched (no host operation and no region writes
  one), and the result array ends at what the block-pad region's write-backs left.
-/
import proofs.«160098_j807453852263_1_alg».proof.Proof.KernelProjBody
import proofs.«160098_j807453852263_1_alg».proof.Proof.KernelPadBody
import proofs.«160098_j807453852263_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the five boundaries -/

/-- At launch. -/
abbrev at0 : Dev nD → Valuation τ sig (Elt F) := fun c b => m (c, b)
/-- After the first host stretch: the projection region's entry. -/
abbrev at1 : Dev nD → Valuation τ sig (Elt F) := fun c => StableHlo.after hostOps0 (at0 m c)
/-- The same read at the TensorCore's references. -/
abbrev ent0 : (c : Dev nD) → (b : Ref sig .tc) → Buf (Elt F) ((c : Thread nD τ).loc b) := fun c b => at1 m c b
/-- At the projection region's exit: its arrays at what the pipeline leaves, every other buffer as entered. -/
def at2 (c : Dev nD) : Valuation τ sig (Elt F) :=
  Pipeline.withArrays spec0 c (at1 m c) fun w => (Proj.dat (ent0 m) c).arrAt w cfg0.N
theorem at2_arr (c : Dev nD) (w : Fin cfg0.W) :
    at2 m c (Proc.devRef .tc (Pipeline.arrRef spec0 w)) = (Proj.dat (ent0 m) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb
abbrev ext0 : (c : Dev nD) → (b : Ref sig .tc) → Buf (Elt F) ((c : Thread nD τ).loc b) := fun c b => at2 m c b
theorem exit0_arr (c : Dev nD) (w : Fin cfg0.W) : (Proj.dat (ent0 m) c).arrAt w cfg0.N = ext0 m c (Pipeline.arrRef spec0 w) :=
  (at2_arr m c w).symm
theorem exit0_rest (c : Dev nD) : ∀ b, b ∉ Finset.univ.image (Pipeline.arrRef spec0) → ext0 m c b = ent0 m c b :=
  fun b hb => at2_of_ne m c b fun w e => hb (Finset.mem_image.mpr ⟨w, Finset.mem_univ _, e⟩)

/-- After the reshape: the block-pad region's entry. -/
abbrev at3 : Dev nD → Valuation τ sig (Elt F) := fun c => StableHlo.after hostOps1 (at2 m c)
abbrev ent1 : (c : Dev nD) → (b : Ref sig .tc) → Buf (Elt F) ((c : Thread nD τ).loc b) := fun c b => at3 m c b
/-- At the block-pad region's exit. -/
def at4 (c : Dev nD) : Valuation τ sig (Elt F) :=
  Pipeline.withArrays spec1 c (at3 m c) fun w => (Pad.dat (ent1 m) c).arrAt w cfg1.N
theorem at4_arr (c : Dev nD) (w : Fin cfg1.W) :
    at4 m c (Proc.devRef .tc (Pipeline.arrRef spec1 w)) = (Pad.dat (ent1 m) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m c (Proc.devRef .tc b) = at3 m c (Proc.devRef .tc b) := by
  unfold at4; exact Pipeline.withArrays_of_ne spec1 c _ _ b hb
abbrev ext1 : (c : Dev nD) → (b : Ref sig .tc) → Buf (Elt F) ((c : Thread nD τ).loc b) := fun c b => at4 m c b
theorem exit1_arr (c : Dev nD) (w : Fin cfg1.W) : (Pad.dat (ent1 m) c).arrAt w cfg1.N = ext1 m c (Pipeline.arrRef spec1 w) :=
  (at4_arr m c w).symm
theorem exit1_rest (c : Dev nD) : ∀ b, b ∉ Finset.univ.image (Pipeline.arrRef spec1) → ext1 m c b = ent1 m c b :=
  fun b hb => at4_of_ne m c b fun w e => hb (Finset.mem_image.mpr ⟨w, Finset.mem_univ _, e⟩)

/-! ## What the host stretches leave alone -/

theorem at1_of (c : Dev nD) (r : Ref sig .tc) (h : r ∉ hostOps0_W) : at1 m c r = at0 m c r :=
  StableHlo.after_of_writes_sub hostOps0 _ hostOps0_writes h
theorem at3_of (c : Dev nD) (r : Ref sig .tc) (h : r ∉ hostOps1_W) : at3 m c r = at2 m c r :=
  StableHlo.after_of_writes_sub hostOps1 _ hostOps1_writes h

/-! ## The arguments end as launched -/

theorem at4_main_arg0 (c : Dev nD) : at4 m c (Proc.devRef .tc main_arg0) = m ((c : Thread nD τ).loc main_arg0) :=
  (at4_of_ne m c main_arg0 (by decide)).trans <| (at3_of m c main_arg0 (by decide)).trans <|
    (at2_of_ne m c main_arg0 (by decide)).trans <| (at1_of m c main_arg0 (by decide)).trans rfl
/-- The basis is the projection region's second window, an input: its array is never written. -/
theorem at4_main_arg1 (c : Dev nD) : at4 m c (Proc.devRef .tc main_arg1) = m ((c : Thread nD τ).loc main_arg1) :=
  (at4_of_ne m c main_arg1 (by decide)).trans <| (at3_of m c main_arg1 (by decide)).trans <|
    ((at2_arr m c 1).trans (((Proj.dat (ent0 m) c).arrAt_in 1 rfl _).trans (Proj.dat_A (ent0 m) c 1))).trans <|
    (at1_of m c main_arg1 (by decide)).trans rfl
theorem at4_main_arg2 (c : Dev nD) : at4 m c (Proc.devRef .tc main_arg2) = m ((c : Thread nD τ).loc main_arg2) :=
  (at4_of_ne m c main_arg2 (by decide)).trans <| (at3_of m c main_arg2 (by decide)).trans <|
    (at2_of_ne m c main_arg2 (by decide)).trans <| (at1_of m c main_arg2 (by decide)).trans rfl
theorem at4_main_arg3 (c : Dev nD) : at4 m c (Proc.devRef .tc main_arg3) = m ((c : Thread nD τ).loc main_arg3) :=
  (at4_of_ne m c main_arg3 (by decide)).trans <| (at3_of m c main_arg3 (by decide)).trans <|
    (at2_of_ne m c main_arg3 (by decide)).trans <| (at1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (ent0 m) c
  | ⟨1, _⟩ => fun c => Pad.dat (ent1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (at4 m c) ∗ ∃ r, prngReg c r)

/-! ## The regions as segments -/

set_option backward.isDefEq.respectTransparency.types false in
/-- The projection region: entered from every unscoped buffer at `at1`, left at `at2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (ent0 m) c).loose
  hwaits := Pipeline.hwaits_of_owed_zero _ _ _ _ L lv 0 fun _ _ => rfl
  pre c := iprop(StableHlo.held (c : Thread nD τ) (Pipeline.ucRefs τ sig) (at1 m c) ∗ R c)
  post c := iprop(StableHlo.held (c : Thread nD τ) (Pipeline.ucRefs τ sig) (at2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The block-pad region: entered from every unscoped buffer at `at3`, left at `at4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pad.body_obligation (ent1 m) c).loose
  hwaits := Pipeline.hwaits_of_owed_zero _ _ _ _ L lv 1 fun _ _ => rfl
  pre c := iprop(StableHlo.held (c : Thread nD τ) (Pipeline.ucRefs τ sig) (at3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (at0 m)),
    .region (reg0 m),
    .host (hseg hostOps1 hostOps1_sub hostOps1_fresh (at2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m c b)
    (hfin := fun c s' => by
      iintro ⟨⟨Hh, -⟩, HSI⟩
      unfold StableHlo.held
      imodintro
      iapply (pointsTo_read_all (Pipeline.ucRefs τ sig) (fun b => (((c : Thread nD τ)).1, b)) (at4 m c) s')
      isplitl [Hh] <;> iassumption)
    (hQ := fun s h => h)

/-- Each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (at4_main_arg0 m c),
     (h c _ (mem_uc main_arg1 (by decide))).trans (at4_main_arg1 m c),
     (h c _ (mem_uc main_arg2 (by decide))).trans (at4_main_arg2 m c),
     (h c _ (mem_uc main_arg3 (by decide))).trans (at4_main_arg3 m c)⟩) (run_all m ρ)

/-- The result array ends at what the block-pad region's write-backs left, beside the frame. -/
theorem run_result : θ_run defs (onTc (τ := τ) (main (F := F))) ⟨m, fun _ => 0, ρ⟩ (fun r => ∀ c : Dev nD,
      r.2.mem ((c.tc : Thread nD τ).loc main_v6) = (Pad.dat (ent1 m) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (at4_arr m c 1),
     (h c _ (mem_uc main_arg0 (by decide))).trans (at4_main_arg0 m c),
     (h c _ (mem_uc main_arg1 (by decide))).trans (at4_main_arg1 m c),
     (h c _ (mem_uc main_arg2 (by decide))).trans (at4_main_arg2 m c),
     (h c _ (mem_uc main_arg3 (by decide))).trans (at4_main_arg3 m c)⟩) (run_all m ρ)

end Cert.Kernel.Whole

end
-- ==== Proof.HostValue.lean ====
/-
  What the host operations around the two regions compute, read off the fold of boundary contents: the projection
  region finds the scaled coefficients (the row L broadcast over the batch, times z), the basis as launched, and
  the offset recast as a 1 × 1048576 row; the block-pad region finds the projected field recast as 8 × 4 blocks of
  64 × 64 × 64.
-/
import proofs.«160098_j807453852263_1_alg».proof.Proof.Whole
import Idealize.ShloMosaic.Lib.StableHlo.Run

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable {F : FTy → Type} [FloatOps F]
variable (m : (ℓ : Loc nD τ sig) → Buf (Elt F) ℓ)

/-- The projection region's first operand is L ⊙ z: the row L broadcast to every batch entry, times z. -/
theorem entry_lz (c : Dev nD) :
    (Whole.ent0 m c main_v2 : (⟨S8x64, .f32⟩ : BufTy).Contents (Elt F)) =
      mulf (broadcastInDim S8x64 ![0, 1] bcast_S1x64_S8x64_0_1 (broadcastInDim S1x64 ![1] bcast_S64_S1x64_1 (m ((c.tc : Thread nD τ).loc main_arg2))))
        (m ((c.tc : Thread nD τ).loc main_arg0)) := by
  show StableHlo.after hostOps0 (fun b => m (c, b)) (Proc.devRef .tc main_v2) = _
  after_results

/-- Its second operand is the basis as launched. -/
theorem entry_U (c : Dev nD) : Whole.ent0 m c main_arg1 = m ((c.tc : Thread nD τ).loc main_arg1) :=
  (Whole.at1_of m c main_arg1 (by decide)).trans rfl

/-- Its third operand is the offset recast as a row. -/
theorem entry_mu (c : Dev nD) :
    (Whole.ent0 m c main_v3 : (⟨S1x1048576, .f32⟩ : BufTy).Contents (Elt F)) =
      shapeCast S1x1048576 (m ((c.tc : Thread nD τ).loc main_arg3)) shapeCasts_S1048576_S1x1048576 := by
  show StableHlo.after hostOps0 (fun b => m (c, b)) (Proc.devRef .tc main_v3) = _
  after_results; rfl

/-- The block-pad region's operand is the projection region's result recast in blocks. -/
theorem entry_blocks (c : Dev nD) :
    (Whole.ent1 m c main_v5 : (⟨S8x4x64x64x64, .f32⟩ : BufTy).Contents (Elt F)) =
      shapeCast S8x4x64x64x64 ((Proj.dat (Whole.ent0 m) c).arrAt 3 cfg0.N) shapeCasts_S8x1048576_S8x4x64x64x64 := by
  show StableHlo.after hostOps1 (Whole.at2 m c) (Proc.devRef .tc main_v5) = _
  after_results
  rw [Whole.at2_arr m c 3]
  rfl

end Cert.KernelIdeal.HostValue

end
-- ==== Proof.Spec.lean ====
/-
  The two whole-array functions both programs compute, stated once over literal shapes.

  `flatG`: the projected field, entry (b, n) = Σ_k lz[b, k] · U[k, n] + mu[0, n]   (lz the scaled coefficients L ⊙ z,
  mu the offset as a 1 × 1048576 row).

  `padG`: the block-pad. A field of 64×64×64 blocks, one per (b, c), is laid into 128×128×128 cubes filled with a
  given value `z`: slab d < 32 of a block goes to depth d, slab d ≥ 32 goes to depth d + 64, and within a slab row h and
  column w go to h + 32 and w + 32. Reading the cube at (d, h, w): inside the lower place (d < 32, 32 ≤ h, w < 96) it is
  the block at (d, h − 32, w − 32); inside the upper place (96 ≤ d, same rows and columns) it is the block at
  (d − 64, h − 32, w − 32); everywhere else it is `z`.
-/
import Idealize.ShloMosaic.PureOps.Ideal
import Idealize.ShloMosaic.Lib.ValueIdx

noncomputable section

namespace Cert.Spec

open Idealize.ShloMosaic Idealize.ShloMosaic.ValueIdx

abbrev SLz : Shape := ⟨2, ![8, 64]⟩
abbrev SU : Shape := ⟨2, ![64, 1048576]⟩
abbrev SMuRow : Shape := ⟨2, ![1, 1048576]⟩
abbrev SFlat : Shape := ⟨2, ![8, 1048576]⟩
abbrev SBlk : Shape := ⟨5, ![8, 4, 64, 64, 64]⟩
abbrev SGrid : Shape := ⟨5, ![8, 4, 128, 128, 128]⟩

/-- The projected field: entry (b, n) is Σ_k lz[b, k] · U[k, n] + mu[0, n]. -/
def flatG (lz : SLz.Idx → EReal) (U : SU.Idx → EReal) (mu : SMuRow.Idx → EReal) : SFlat.Idx → EReal := fun i =>
  (∑ k : Fin 64, lz (ix2 (⟨(i 0).val, (i 0).isLt⟩ : Fin 8) k) * U (ix2 k (⟨(i 1).val, (i 1).isLt⟩ : Fin 1048576)))
    + mu (ix2 (⟨0, Nat.one_pos⟩ : Fin 1) (⟨(i 1).val, (i 1).isLt⟩ : Fin 1048576))

/-- The cube index lies where the lower half-block (slabs 0..31) is laid. -/
def inLo (j : SGrid.Idx) : Prop :=
  (j 2).val < 32 ∧ 32 ≤ (j 3).val ∧ (j 3).val < 96 ∧ 32 ≤ (j 4).val ∧ (j 4).val < 96
/-- The cube index lies where the upper half-block (slabs 32..63) is laid. -/
def inHi (j : SGrid.Idx) : Prop :=
  96 ≤ (j 2).val ∧ 32 ≤ (j 3).val ∧ (j 3).val < 96 ∧ 32 ≤ (j 4).val ∧ (j 4).val < 96

instance (j : SGrid.Idx) : Decidable (inLo j) := by unfold inLo; infer_instance
instance (j : SGrid.Idx) : Decidable (inHi j) := by unfold inHi; infer_instance

/-- The block entry a cube index in the lower place shows: (d, h − 32, w − 32). -/
def srcLo (j : SGrid.Idx) (h : inLo j) : SBlk.Idx :=
  ix5 (⟨(j 0).val, (j 0).isLt⟩ : Fin 8) (⟨(j 1).val, (j 1).isLt⟩ : Fin 4)
    (⟨(j 2).val, by have := h.1; omega⟩ : Fin 64)
    (⟨(j 3).val - 32, by have := h.2.2.1; omega⟩ : Fin 64)
    (⟨(j 4).val - 32, by have := h.2.2.2.2; omega⟩ : Fin 64)
/-- The block entry a cube index in the upper place shows: (d − 64, h − 32, w − 32). -/
def srcHi (j : SGrid.Idx) (h : inHi j) : SBlk.Idx :=
  ix5 (⟨(j 0).val, (j 0).isLt⟩ : Fin 8) (⟨(j 1).val, (j 1).isLt⟩ : Fin 4)
    (⟨(j 2).val - 64, by have := (j 2).isLt; have : (j 2).val < 128 := this; omega⟩ : Fin 64)
    (⟨(j 3).val - 32, by have := h.2.2.1; omega⟩ : Fin 64)
    (⟨(j 4).val - 32, by have := h.2.2.2.2; omega⟩ : Fin 64)

/-- The block-pad of a field of blocks into cubes filled with `z`. -/
def padG {α : Type} (z : α) (blk : SBlk.Idx → α) : SGrid.Idx → α := fun j =>
  if h : inLo j then blk (srcLo j h) else if h' : inHi j then blk (srcHi j h') else z

theorem padG_lo {α : Type} (z : α) (blk : SBlk.Idx → α) (j : SGrid.Idx) (h : inLo j) : padG z blk j = blk (srcLo j h) := by
  unfold padG; rw [dif_pos h]
theorem padG_hi {α : Type} (z : α) (blk : SBlk.Idx → α) (j : SGrid.Idx) (h : inHi j) : padG z blk j = blk (srcHi j h) := by
  have hn : ¬ inLo j := fun hl => by have := hl.1; have := h.1; omega
  unfold padG; rw [dif_neg hn, dif_pos h]
theorem padG_out {α : Type} (z : α) (blk : SBlk.Idx → α) (j : SGrid.Idx) (h : ¬ inLo j) (h' : ¬ inHi j) : padG z blk j = z := by
  unfold padG; rw [dif_neg h, dif_neg h']

end Cert.Spec

end
-- ==== Proof.ProjValue.lean ====
/-
  The value of region 0, the projection (L ⊙ z) · U + mu, at the exact (extended-real) instance.

  Per grid point t the body stores the tile  out[0:8, 32768 t : 32768 (t+1)] = lz · U_tile + mu_tile  where the format
  changes are the identity and the product accumulates into zero, so entry (p, q) of the tile is
  Σ_k lz[p, k] · U_tile[k, q] + mu_tile[0, q]. The operand tiles are the operand arrays read at columns 32768 t + q
  (the coefficients' window is the whole [8,64] array at every point), hence the tile a point writes back is tile t of
  the projected field; the 32 tiles cover the [8,1048576] result (column n lies in tile n / 32768), so the array the
  write-backs leave IS the projected field of the three operand arrays as the region found them.
-/
import proofs.«160098_j807453852263_1_alg».proof.Proof.ProjData
import proofs.«160098_j807453852263_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Proj

/-! ## The product of the tile: the matrix unit's contraction read at an index -/

theorem lhs_axis0 (i : S8x32768.Idx) (q : dot_S8x64_S64x32768_S8x32768_1_0_0_1_n_n.contr.Idx) :
    (dot_S8x64_S64x32768_S8x32768_1_0_0_1_n_n.lhsIdx i q 0).val = (i 0).val := by
  unfold DotDims.lhsIdx
  rw [dif_neg (show ¬(0 : Fin S8x64.rank) ∈ dot_S8x64_S64x32768_S8x32768_1_0_0_1_n_n.lhsBatch by decide), dif_pos (show (0 : Fin S8x64.rank) ∈ dot_S8x64_S64x32768_S8x32768_1_0_0_1_n_n.lhsNonContracting by decide)]
  rfl
theorem lhs_axis1 (i : S8x32768.Idx) (q : dot_S8x64_S64x32768_S8x32768_1_0_0_1_n_n.contr.Idx) :
    (dot_S8x64_S64x32768_S8x32768_1_0_0_1_n_n.lhsIdx i q 1).val = (q ⟨0, by decide⟩).val :=
  dot_S8x64_S64x32768_S8x32768_1_0_0_1_n_n.lhsIdx_val_of_single rfl i q
theorem rhs_axis0 (i : S8x32768.Idx) (q : dot_S8x64_S64x32768_S8x32768_1_0_0_1_n_n.contr.Idx) :
    (dot_S8x64_S64x32768_S8x32768_1_0_0_1_n_n.rhsIdx i q 0).val = (q ⟨0, by decide⟩).val :=
  dot_S8x64_S64x32768_S8x32768_1_0_0_1_n_n.rhsIdx_val_of_single rfl i q
theorem rhs_axis1 (i : S8x32768.Idx) (q : dot_S8x64_S64x32768_S8x32768_1_0_0_1_n_n.contr.Idx) :
    (dot_S8x64_S64x32768_S8x32768_1_0_0_1_n_n.rhsIdx i q 1).val = (i 1).val := by
  unfold DotDims.rhsIdx
  rw [dif_neg (show ¬(1 : Fin S64x32768.rank) ∈ dot_S8x64_S64x32768_S8x32768_1_0_0_1_n_n.rhsBatch by decide), dif_pos (show (1 : Fin S64x32768.rank) ∈ dot_S8x64_S64x32768_S8x32768_1_0_0_1_n_n.rhsNonContracting by decide)]
  rfl

/-- Into the zero accumulator the product of an [8,64] by a [64,32768] operand at (p, q) is Σ_k l[p,k] · r[k,q]. -/
theorem matmul_at (l : FVec Ideal S8x64 .bf16) (r : FVec Ideal S64x32768 .bf16) (p : Fin 8) (q : Fin 32768) :
    matmul dot_S8x64_S64x32768_S8x32768_1_0_0_1_n_n none l r (constant (F := Ideal) S8x32768 .f32 0x00000000#32) (ix2 p q)
      = ∑ k : Fin 64, l (ix2 p k) * r (ix2 k q) := by
  simp only [matmul]
  rw [Ideal.matmul_constant_zero_apply, ← Equiv.sum_comp (ValueIdx.contrEquiv1 dot_S8x64_S64x32768_S8x32768_1_0_0_1_n_n 64 rfl rfl).symm]
  refine Finset.sum_congr rfl fun k _ => ?_
  have hk := ValueIdx.contrEquiv1_symm_val dot_S8x64_S64x32768_S8x32768_1_0_0_1_n_n 64 rfl rfl k
  have el : dot_S8x64_S64x32768_S8x32768_1_0_0_1_n_n.lhsIdx (ix2 p q) ((ValueIdx.contrEquiv1 dot_S8x64_S64x32768_S8x32768_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S8x64_S64x32768_S8x32768_1_0_0_1_n_n.rhsIdx (ix2 p q) ((ValueIdx.contrEquiv1 dot_S8x64_S64x32768_S8x32768_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The offset row spread over the eight rows, at (p, q), is the row's entry q. -/
theorem row_at (x : S1x32768.Idx → EReal) (p : Fin 8) (q : Fin 32768) :
    broadcastTo S8x32768 x broadcasts_S1x32768_S8x32768 (ix2 p q) = x (ix2 (0 : Fin 1) q) := by
  refine broadcastTo_apply x broadcasts_S1x32768_S8x32768 (ix2 p q) (ix2 (0 : Fin 1) q) fun a => ?_
  match a with
  | ⟨0, _⟩ => show (0 : Nat) = if (1 : Nat) = 1 then 0 else _; rw [if_pos rfl]
  | ⟨1, _⟩ => show q.val = if (32768 : Nat) = 1 then 0 else q.val; rw [if_neg (by decide)]

/-- THE PAYLOAD AT AN INDEX: entry (p, q) of the tile the body stores is Σ_k x0[p,k] · x1[k,q] + x2[0,q]. -/
theorem pay_at (x0 : Vec Ideal S8x64 .f32) (x1 : Vec Ideal S64x32768 .f32) (x2 : Vec Ideal S1x32768 .f32) (p : Fin 8) (q : Fin 32768) :
    k0_pay1 x0 x1 x2 (ix2 p q) = (∑ k : Fin 64, x0 (ix2 p k) * x1 (ix2 k q)) + x2 (ix2 (0 : Fin 1) q) := by
  unfold k0_pay1
  rw [addf_apply, matmul_at, row_at]
  simp only [truncf_apply, shapeCast_self]

/-! ## One grid point's tile is the tile of the projected field -/

/-- Entry y of the stored tile of column tile n is the projected field at (y 0, 32768 n + y 1), when the three
    operand tiles are the operands' entries there: the coefficients whole, the basis and the offset row at
    columns 32768 n + q. -/
theorem point_eq (lz : Cert.Spec.SLz.Idx → EReal) (U : Cert.Spec.SU.Idx → EReal) (mu : Cert.Spec.SMuRow.Idx → EReal)
    (x0 : Vec Ideal S8x64 .f32) (x1 : Vec Ideal S64x32768 .f32) (x2 : Vec Ideal S1x32768 .f32) (n : Nat)
    (h0 : ∀ (p : Fin 8) (k : Fin 64), x0 (ix2 p k) = lz (ix2 p k))
    (h1 : ∀ (k : Fin 64) (q : Fin 32768) (m : Fin 1048576), m.val = n * 32768 + q.val → x1 (ix2 k q) = U (ix2 k m))
    (h2 : ∀ (q : Fin 32768) (m : Fin 1048576), m.val = n * 32768 + q.val → x2 (ix2 (0 : Fin 1) q) = mu (ix2 (⟨0, Nat.one_pos⟩ : Fin 1) m))
    (y : S8x32768.Idx) (i : Cert.Spec.SFlat.Idx) (hi0 : (i 0).val = (y 0).val) (hi1 : (i 1).val = n * 32768 + (y 1).val) :
    k0_pay1 x0 x1 x2 y = Cert.Spec.flatG lz U mu i := by
  obtain ⟨p, q, rfl⟩ : ∃ (p : Fin 8) (q : Fin 32768), y = ix2 p q := ⟨y 0, y 1, eq_ix2 y⟩
  rw [pay_at]
  unfold Cert.Spec.flatG
  have hp : (⟨(i 0).val, (i 0).isLt⟩ : Fin 8) = p := Fin.ext hi0
  rw [hp, h2 q ⟨(i 1).val, (i 1).isLt⟩ hi1]
  congr 1
  exact Finset.sum_congr rfl fun k _ => by rw [h0 p k, h1 k q ⟨(i 1).val, (i 1).isLt⟩ hi1]

theorem hz : (![0, 0] : Fin 2 → Nat) = fun _ => 0 := funext fun a => by fin_cases a <;> rfl

/-- The block index of each window at each of the 32 points: the coefficients' window stays on the one block; the
    basis, the offset row and the result move along the long axis with the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-- WHAT POINT t WRITES BACK is tile t of the projected field of the three operand arrays as the region finds them. -/
theorem flushed_eq (c : Dev nD) (t : Fin cfg0.N) :
    (Proj.dat (F := Ideal) V c).flushed 3 t
      = ((cfg0.win 3).blk t).view.read (Elt Ideal) (Cert.Spec.flatG (V c main_v2) (V c main_arg1) (V c main_v3)) := by
  show (cfg0.win 3).cut (grid0.coords t) ((Proj.dat V c).after 3 t) = _
  rw [Proj.after_3]
  unfold Proj.outTile
  rw [View.canon_unit_zero hz]
  simp only [View.ld_unit_zero (S := S8x64) hz, View.ld_unit_zero (S := S64x32768) hz, View.ld_unit_zero (S := S1x32768) hz]
  obtain ⟨a0, a1, b0, b1, c0, c1, d0, d1⟩ := idx_facts t
  funext j
  show k0_pay1 (tile V c 0 t) (tile V c 1 t) (tile V c 2 t) ((cfg0.win 3).xinj (grid0.coords t) j)
    = Cert.Spec.flatG (V c main_v2) (V c main_arg1) (V c main_v3) (((cfg0.win 3).blk t).view.emb j)
  refine point_eq _ _ _ _ _ _ t.val ?_ ?_ ?_ _ _ ?_ ?_
  · intro p k
    show V c main_v2 (((cfg0.win 0).blk t).view.emb (ix2 p k)) = V c main_v2 (ix2 p k)
    refine congrArg _ (funext fun a => Fin.ext ?_)
    match a with
    | ⟨0, _⟩ => show win0_0.index t (0 : Fin 2) * 8 + 1 * p.val = p.val; rw [a0]; omega
    | ⟨1, _⟩ => show win0_0.index t (1 : Fin 2) * 64 + 1 * k.val = k.val; rw [a1]; omega
  · intro k q m hm
    show V c main_arg1 (((cfg0.win 1).blk t).view.emb (ix2 k q)) = V c main_arg1 (ix2 k m)
    refine congrArg _ (funext fun a => Fin.ext ?_)
    match a with
    | ⟨0, _⟩ => show win0_1.index t (0 : Fin 2) * 64 + 1 * k.val = k.val; rw [b0]; omega
    | ⟨1, _⟩ => show win0_1.index t (1 : Fin 2) * 32768 + 1 * q.val = m.val; rw [b1, hm]; omega
  · intro q m hm
    show V c main_v3 (((cfg0.win 2).blk t).view.emb (ix2 (0 : Fin 1) q)) = V c main_v3 (ix2 (⟨0, Nat.one_pos⟩ : Fin 1) m)
    refine congrArg _ (funext fun a => Fin.ext ?_)
    match a with
    | ⟨0, _⟩ => show win0_2.index t (0 : Fin 2) * 1 + 1 * 0 = 0; rw [c0]
    | ⟨1, _⟩ => show win0_2.index t (1 : Fin 2) * 32768 + 1 * q.val = m.val; rw [c1, hm]; omega
  · show win0_3.index t (0 : Fin 2) * 8 + 1 * (j 0).val = (j 0).val
    rw [d0]; omega
  · show win0_3.index t (1 : Fin 2) * 32768 + 1 * (j 1).val = t.val * 32768 + (j 1).val
    rw [d1]; omega

/-- An index of the result array is in point t's tile iff each coordinate is in the tile's range on its axis. -/
theorem mem_tile (t : Fin cfg0.N) (i : S8x1048576.Idx) :
    i ∈ ((cfg0.win 3).blk t).view.set ↔ ∀ a : Fin 2, win0_3.index t a * S8x32768.size a ≤ (i a).val ∧ (i a).val < win0_3.index t a * S8x32768.size a + S8x32768.size a := by
  show i ∈ ((View.whole main_v4).slice (win0_3.rect t)).set ↔ _
  rw [View.set_slice_whole, Rect.mem_set_unit]
  exact Iff.rfl

/-- THE 32 TILES COVER THE ARRAY: column n lies in the tile of point n / 32768. -/
theorem cover (i : S8x1048576.Idx) :
    ∃ t : Fin cfg0.N, (cfg0.win 3).flush t = true ∧ i ∈ ((cfg0.win 3).blk t).view.set := by
  have hi0 : (i 0).val < 8 := (i 0).isLt
  have hi1 : (i 1).val < 1048576 := (i 1).isLt
  have hN : cfg0.N = 32 := by decide
  obtain ⟨t, ht⟩ : ∃ t : Fin cfg0.N, t.val = (i 1).val / 32768 := ⟨⟨(i 1).val / 32768, by rw [hN]; omega⟩, rfl⟩
  obtain ⟨-, -, -, -, -, -, d0, d1⟩ := idx_facts t
  refine ⟨t, flush0_3 t, ?_⟩
  rw [mem_tile]
  intro a
  match a with
  | ⟨0, _⟩ => show win0_3.index t (0 : Fin 2) * 8 ≤ (i 0).val ∧ (i 0).val < win0_3.index t (0 : Fin 2) * 8 + 8; rw [d0]; omega
  | ⟨1, _⟩ => show win0_3.index t (1 : Fin 2) * 32768 ≤ (i 1).val ∧ (i 1).val < win0_3.index t (1 : Fin 2) * 32768 + 32768; rw [d1, ht]; omega

/-- THE ARRAY the region's write-backs leave in the result is the projected field of the three operand arrays as the
    region found them. -/
theorem final (c : Dev nD) :
    (Proj.dat (F := Ideal) V c).arrAt 3 cfg0.N = Cert.Spec.flatG (V c main_v2) (V c main_arg1) (V c main_v3) :=
  (Proj.dat (F := Ideal) V c).arrAt_eq_of_cover 3 (Cert.Spec.flatG (V c main_v2) (V c main_arg1) (V c main_v3))
    (fun t _ => flushed_eq V c t) cover

end Cert.KernelIdeal.ProjValue

end
-- ==== Proof.PadValue.lean ====
/-
  The value of the block-pad region. Grid point (b, c) sees the 64×64×64 block (b, c) of the field and leaves a
  128×128×128 cube: zeros, then the block's slabs 0..31 at depth 0..31, then its slabs 32..63 at depth 96..127, rows and
  columns shifted by 32. Read index by index the cube is: in the upper place (96 ≤ d, 32 ≤ h, w < 96) the block at
  (d − 64, h − 32, w − 32), in the lower place (d < 32, same rows and columns) the block at (d, h − 32, w − 32), the zero
  elsewhere — which is cube (b, c) of the block-pad of the whole field. The 32 cubes tile the result array (index
  (b, c, ·, ·, ·) lies in the cube of point 4 b + c), so after the write-backs the array IS the block-pad of the field.
-/
import proofs.«160098_j807453852263_1_alg».proof.Proof.PadData
import proofs.«160098_j807453852263_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.PadValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pad

variable {F : FTy → Type} [FloatOps F]

/-- The fill value: the body's own zero word. -/
abbrev zeroF : F .f32 := Scalar.ofBits .f32 0x00000000#32

theorem hz5 : (![0, 0, 0, 0, 0] : Fin 5 → Nat) = fun _ => 0 := funext fun a => by fin_cases a <;> rfl

/-- The two half-block payloads are shape casts there and back: the loaded half-block itself. -/
theorem pay2_eq (v : Vec F S1x1x32x64x64 .f32) : k1_pay2 v = v := by
  unfold k1_pay2
  exact shapeCast_shapeCast v _ _
theorem pay3_eq (v : Vec F S1x1x32x64x64 .f32) : k1_pay3 v = v := by
  unfold k1_pay3
  exact shapeCast_shapeCast v _ _
/-- The first payload is the zero word at every entry of the cube. -/
theorem pay1_apply (y : S1x1x128x128x128.Idx) : (k1_pay1 (F := F)) y = zeroF := rfl

/-- Off the latest store's rectangle, named outright, the cube is what the earlier stores left. -/
theorem canon_skip {S : Shape} {e : EltTy} (r : Rect S) (w : r.shape.Idx → Elt F e) (L : List (View.Piece (Elt F) S e)) {y : S.Idx}
    (h : y ∉ r.set) : View.canon ((⟨r, w⟩ : View.Piece (Elt F) S e) :: L) y = View.canon L y :=
  View.canon_cons_of_not_mem ⟨r, w⟩ L h

/-- In the upper place the cube shows the upper half of the block. -/
theorem outCube_hi (x0 : Vec F S1x1x64x64x64 .f32) (x : S1x1x32x64x64.Idx) :
    outCube x0 (rHiOut.emb x) = x0 (rHiIn.idx x) := by
  unfold outCube
  rw [View.canon_cons_emb, pay3_eq]

/-- In the lower place (which the upper place does not meet) it shows the lower half. -/
theorem outCube_lo (x0 : Vec F S1x1x64x64x64 .f32) (x : S1x1x32x64x64.Idx) (h : rLoOut.emb x ∉ rHiOut.set) :
    outCube x0 (rLoOut.emb x) = x0 (rLoIn.idx x) := by
  unfold outCube
  rw [canon_skip rHiOut _ _ h, View.canon_cons_emb, pay2_eq]

/-- Everywhere else it shows the zero. -/
theorem outCube_out (x0 : Vec F S1x1x64x64x64 .f32) (y : S1x1x128x128x128.Idx) (h : y ∉ rHiOut.set) (h' : y ∉ rLoOut.set) :
    outCube x0 y = zeroF := by
  unfold outCube
  rw [canon_skip rHiOut _ _ h, canon_skip rLoOut _ _ h', View.canon_unit_zero hz5]
  exact pay1_apply y

/-! ## One cube, index by index -/

/-- A cube index in the lower place is the image of ONE index of the lower half-block: (d, h − 32, w − 32). -/
theorem lo_place (y : S1x1x128x128x128.Idx) (h2 : (y 2).val < 32) (h3 : 32 ≤ (y 3).val) (h3' : (y 3).val < 96)
    (h4 : 32 ≤ (y 4).val) (h4' : (y 4).val < 96) :
    ∃ x : S1x1x32x64x64.Idx, rLoOut.emb x = y ∧ (x 2).val = (y 2).val ∧ (x 3).val = (y 3).val - 32 ∧ (x 4).val = (y 4).val - 32 := by
  refine ⟨ix5 (⟨0, Nat.one_pos⟩ : Fin 1) (⟨0, Nat.one_pos⟩ : Fin 1) (⟨(y 2).val, h2⟩ : Fin 32)
    (⟨(y 3).val - 32, by omega⟩ : Fin 64) (⟨(y 4).val - 32, by omega⟩ : Fin 64), ?_, rfl, rfl, rfl⟩
  have y0 : (y 0).val < 1 := (y 0).isLt
  have y1 : (y 1).val < 1 := (y 1).isLt
  funext a; apply Fin.ext
  match a with
  | ⟨0, _⟩ => show 0 + 1 * 0 = (y 0).val; omega
  | ⟨1, _⟩ => show 0 + 1 * 0 = (y 1).val; omega
  | ⟨2, _⟩ => show 0 + 1 * (y 2).val = (y 2).val; omega
  | ⟨3, _⟩ => show 32 + 1 * ((y 3).val - 32) = (y 3).val; omega
  | ⟨4, _⟩ => show 32 + 1 * ((y 4).val - 32) = (y 4).val; omega

/-- A cube index in the upper place is the image of ONE index of the upper half-block: (d − 96, h − 32, w − 32). -/
theorem hi_place (y : S1x1x128x128x128.Idx) (h2 : 96 ≤ (y 2).val) (h3 : 32 ≤ (y 3).val) (h3' : (y 3).val < 96)
    (h4 : 32 ≤ (y 4).val) (h4' : (y 4).val < 96) :
    ∃ x : S1x1x32x64x64.Idx, rHiOut.emb x = y ∧ (x 2).val = (y 2).val - 96 ∧ (x 3).val = (y 3).val - 32 ∧ (x 4).val = (y 4).val - 32 := by
  have y2 : (y 2).val < 128 := (y 2).isLt
  refine ⟨ix5 (⟨0, Nat.one_pos⟩ : Fin 1) (⟨0, Nat.one_pos⟩ : Fin 1) (⟨(y 2).val - 96, by omega⟩ : Fin 32)
    (⟨(y 3).val - 32, by omega⟩ : Fin 64) (⟨(y 4).val - 32, by omega⟩ : Fin 64), ?_, rfl, rfl, rfl⟩
  have y0 : (y 0).val < 1 := (y 0).isLt
  have y1 : (y 1).val < 1 := (y 1).isLt
  funext a; apply Fin.ext
  match a with
  | ⟨0, _⟩ => show 0 + 1 * 0 = (y 0).val; omega
  | ⟨1, _⟩ => show 0 + 1 * 0 = (y 1).val; omega
  | ⟨2, _⟩ => show 96 + 1 * ((y 2).val - 96) = (y 2).val; omega
  | ⟨3, _⟩ => show 32 + 1 * ((y 3).val - 32) = (y 3).val; omega
  | ⟨4, _⟩ => show 32 + 1 * ((y 4).val - 32) = (y 4).val; omega

/-- THE CUBE OF GRID POINT (b, c) IS CUBE (b, c) OF THE BLOCK-PAD: when the point's input block `x0` is block (b, c) of the
    field `blk`, the cube the body leaves reads, at `y`, what the block-pad of `blk` reads at the array index `j` with
    coordinates (b, c, y₂, y₃, y₄). -/
theorem cube_apply (blk : Cert.Spec.SBlk.Idx → F .f32) (x0 : Vec F S1x1x64x64x64 .f32) (b : Fin 8) (cc : Fin 4)
    (hx0 : ∀ (x : S1x1x64x64x64.Idx) (k : Cert.Spec.SBlk.Idx), (k 0).val = b.val → (k 1).val = cc.val →
      (k 2).val = (x 2).val → (k 3).val = (x 3).val → (k 4).val = (x 4).val → x0 x = blk k)
    (y : S1x1x128x128x128.Idx) (j : Cert.Spec.SGrid.Idx)
    (hj0 : (j 0).val = b.val) (hj1 : (j 1).val = cc.val) (hj2 : (j 2).val = (y 2).val)
    (hj3 : (j 3).val = (y 3).val) (hj4 : (j 4).val = (y 4).val) :
    outCube x0 y = Cert.Spec.padG (zeroF (F := F)) blk j := by
  by_cases hLo : Cert.Spec.inLo j
  · -- the lower place: the second store's payload, the lower half of the block
    rw [Cert.Spec.padG_lo _ _ _ hLo]
    obtain ⟨l2, l3, l3', l4, l4'⟩ := id hLo
    obtain ⟨x, hx, x2, x3, x4⟩ := lo_place y (by omega) (by omega) (by omega) (by omega) (by omega)
    have hnot : rLoOut.emb x ∉ rHiOut.set := by
      rw [hx, Rect.mem_set_unit]
      intro h
      have h2 : 96 ≤ (y 2).val ∧ (y 2).val < 96 + 32 := h 2
      omega
    rw [← hx, outCube_lo x0 x hnot]
    refine hx0 (rLoIn.idx x) (Cert.Spec.srcLo j hLo) hj0 hj1 ?_ ?_ ?_
    · show (j 2).val = 0 + 1 * (x 2).val; omega
    · show (j 3).val - 32 = 0 + 1 * (x 3).val; omega
    · show (j 4).val - 32 = 0 + 1 * (x 4).val; omega
  · by_cases hHi : Cert.Spec.inHi j
    · -- the upper place: the latest store's payload, the upper half of the block
      rw [Cert.Spec.padG_hi _ _ _ hHi]
      obtain ⟨l2, l3, l3', l4, l4'⟩ := id hHi
      obtain ⟨x, hx, x2, x3, x4⟩ := hi_place y (by omega) (by omega) (by omega) (by omega) (by omega)
      have y2 : (y 2).val < 128 := (y 2).isLt
      rw [← hx, outCube_hi x0 x]
      refine hx0 (rHiIn.idx x) (Cert.Spec.srcHi j hHi) hj0 hj1 ?_ ?_ ?_
      · show (j 2).val - 64 = 32 + 1 * (x 2).val; omega
      · show (j 3).val - 32 = 0 + 1 * (x 3).val; omega
      · show (j 4).val - 32 = 0 + 1 * (x 4).val; omega
    · -- elsewhere: only the first store reaches, the zero
      rw [Cert.Spec.padG_out _ _ _ hLo hHi]
      refine outCube_out x0 y ?_ ?_
      · rw [Rect.mem_set_unit]
        intro h
        have h2 : 96 ≤ (y 2).val ∧ (y 2).val < 96 + 32 := h 2
        have h3 : 32 ≤ (y 3).val ∧ (y 3).val < 32 + 64 := h 3
        have h4 : 32 ≤ (y 4).val ∧ (y 4).val < 32 + 64 := h 4
        exact hHi ⟨by omega, by omega, by omega, by omega, by omega⟩
      · rw [Rect.mem_set_unit]
        intro h
        have h2 : 0 ≤ (y 2).val ∧ (y 2).val < 0 + 32 := h 2
        have h3 : 32 ≤ (y 3).val ∧ (y 3).val < 32 + 64 := h 3
        have h4 : 32 ≤ (y 4).val ∧ (y 4).val < 32 + 64 := h 4
        exact hLo ⟨by omega, by omega, by omega, by omega, by omega⟩

/-! ## From cubes to the array -/

/-- The printed index maps, decided once over the 32 grid points: both windows sit at block (t / 4, t % 4, 0, 0, 0). -/
theorem idx_facts : ∀ t : Fin cfg1.N,
    win1_0.index t (0 : Fin 5) = t.val / 4 ∧ win1_0.index t (1 : Fin 5) = t.val % 4 ∧ win1_0.index t (2 : Fin 5) = 0
    ∧ win1_0.index t (3 : Fin 5) = 0 ∧ win1_0.index t (4 : Fin 5) = 0
    ∧ win1_1.index t (0 : Fin 5) = t.val / 4 ∧ win1_1.index t (1 : Fin 5) = t.val % 4 ∧ win1_1.index t (2 : Fin 5) = 0
    ∧ win1_1.index t (3 : Fin 5) = 0 ∧ win1_1.index t (4 : Fin 5) = 0 :=
  (by decide +kernel : ∀ t : Fin grid1.N, _)

theorem N_eq : cfg1.N = 32 := by decide

variable (V : (c : Dev nD) → (b : Ref sig .tc) → Buf (Elt Ideal) ((c : Thread nD τ).loc b))

/-- WHAT POINT `t` WRITES BACK is block `t` of the block-pad of the field as the region finds it. -/
theorem flushed_eq (c : Dev nD) (t : Fin cfg1.N) :
    (Pad.dat (F := Ideal) V c).flushed 1 t
      = ((cfg1.win 1).blk t).view.read (Elt Ideal) (Cert.Spec.padG (zeroF (F := Ideal)) (V c main_v5)) := by
  show (cfg1.win 1).cut (grid1.coords t) ((Pad.dat (F := Ideal) V c).after 1 t) = _
  rw [Pad.after_1]
  obtain ⟨e0, e1, e2, e3, e4, o0, o1, o2, o3, o4⟩ := idx_facts t
  have ht : t.val < 32 := lt_of_lt_of_eq t.isLt N_eq
  funext y
  show outCube (tile V c 0 t) (win1_1.xinj (grid1.coords t) y)
    = Cert.Spec.padG (zeroF (F := Ideal)) (V c main_v5) (((cfg1.win 1).blk t).view.emb y)
  have y0 : (y 0).val < 1 := (y 0).isLt
  have y1 : (y 1).val < 1 := (y 1).isLt
  refine cube_apply (F := Ideal) (V c main_v5) (tile V c 0 t) (⟨t.val / 4, by omega⟩ : Fin 8) (⟨t.val % 4, by omega⟩ : Fin 4) ?_
    (win1_1.xinj (grid1.coords t) y) (((cfg1.win 1).blk t).view.emb y) ?_ ?_ ?_ ?_ ?_
  · -- the input block read where the point's index says
    intro x k k0 k1 k2 k3 k4
    have x0' : (x 0).val < 1 := (x 0).isLt
    have x1' : (x 1).val < 1 := (x 1).isLt
    show V c main_v5 (((cfg1.win 0).blk t).view.emb x) = V c main_v5 k
    refine congrArg (V c main_v5) (funext fun a => Fin.ext ?_)
    match a with
    | ⟨0, _⟩ => show win1_0.index t (0 : Fin 5) * 1 + 1 * (x 0).val = (k 0).val; rw [e0, k0]; show t.val / 4 * 1 + 1 * (x 0).val = t.val / 4; omega
    | ⟨1, _⟩ => show win1_0.index t (1 : Fin 5) * 1 + 1 * (x 1).val = (k 1).val; rw [e1, k1]; show t.val % 4 * 1 + 1 * (x 1).val = t.val % 4; omega
    | ⟨2, _⟩ => show win1_0.index t (2 : Fin 5) * 64 + 1 * (x 2).val = (k 2).val; rw [e2, k2]; omega
    | ⟨3, _⟩ => show win1_0.index t (3 : Fin 5) * 64 + 1 * (x 3).val = (k 3).val; rw [e3, k3]; omega
    | ⟨4, _⟩ => show win1_0.index t (4 : Fin 5) * 64 + 1 * (x 4).val = (k 4).val; rw [e4, k4]; omega
  · show win1_1.index t (0 : Fin 5) * 1 + 1 * (y 0).val = t.val / 4; rw [o0]; omega
  · show win1_1.index t (1 : Fin 5) * 1 + 1 * (y 1).val = t.val % 4; rw [o1]; omega
  · show win1_1.index t (2 : Fin 5) * 128 + 1 * (y 2).val = (y 2).val; rw [o2]; omega
  · show win1_1.index t (3 : Fin 5) * 128 + 1 * (y 3).val = (y 3).val; rw [o3]; omega
  · show win1_1.index t (4 : Fin 5) * 128 + 1 * (y 4).val = (y 4).val; rw [o4]; omega

/-- An index of the array is in point `t`'s cube iff each coordinate is in the cube's range on its axis. -/
theorem mem_blk (t : Fin cfg1.N) (i : S8x4x128x128x128.Idx) :
    i ∈ ((cfg1.win 1).blk t).view.set ↔ ∀ a : Fin 5, win1_1.index t a * S1x1x128x128x128.size a ≤ (i a).val
      ∧ (i a).val < win1_1.index t a * S1x1x128x128x128.size a + S1x1x128x128x128.size a := by
  show i ∈ ((View.whole main_v6).slice (win1_1.rect t)).set ↔ _
  rw [View.set_slice_whole, Rect.mem_set_unit]
  exact Iff.rfl

/-- THE CUBES COVER THE ARRAY: index (b, c, ·, ·, ·) lies in the cube of point 4 b + c. -/
theorem cover (i : S8x4x128x128x128.Idx) :
    ∃ t : Fin cfg1.N, (cfg1.win 1).flush t = true ∧ i ∈ ((cfg1.win 1).blk t).view.set := by
  have i0 : (i 0).val < 8 := (i 0).isLt
  have i1 : (i 1).val < 4 := (i 1).isLt
  have i2 : (i 2).val < 128 := (i 2).isLt
  have i3 : (i 3).val < 128 := (i 3).isLt
  have i4 : (i 4).val < 128 := (i 4).isLt
  have hlt : 4 * (i 0).val + (i 1).val < cfg1.N := lt_of_lt_of_eq (by omega : 4 * (i 0).val + (i 1).val < 32) N_eq.symm
  obtain ⟨t, ht⟩ : ∃ t : Fin cfg1.N, t.val = 4 * (i 0).val + (i 1).val := ⟨⟨_, hlt⟩, rfl⟩
  obtain ⟨-, -, -, -, -, o0, o1, o2, o3, o4⟩ := idx_facts t
  refine ⟨t, flush1_1 t, ?_⟩
  rw [mem_blk]
  intro a
  match a with
  | ⟨0, _⟩ => show win1_1.index t (0 : Fin 5) * 1 ≤ (i 0).val ∧ (i 0).val < win1_1.index t (0 : Fin 5) * 1 + 1; rw [o0]; omega
  | ⟨1, _⟩ => show win1_1.index t (1 : Fin 5) * 1 ≤ (i 1).val ∧ (i 1).val < win1_1.index t (1 : Fin 5) * 1 + 1; rw [o1]; omega
  | ⟨2, _⟩ => show win1_1.index t (2 : Fin 5) * 128 ≤ (i 2).val ∧ (i 2).val < win1_1.index t (2 : Fin 5) * 128 + 128; rw [o2]; omega
  | ⟨3, _⟩ => show win1_1.index t (3 : Fin 5) * 128 ≤ (i 3).val ∧ (i 3).val < win1_1.index t (3 : Fin 5) * 128 + 128; rw [o3]; omega
  | ⟨4, _⟩ => show win1_1.index t (4 : Fin 5) * 128 ≤ (i 4).val ∧ (i 4).val < win1_1.index t (4 : Fin 5) * 128 + 128; rw [o4]; omega

/-- THE ARRAY the region's write-backs leave is the block-pad of the field the region found. -/
theorem final (V : (c : Dev nD) → (b : Ref sig .tc) → Buf (Elt Ideal) ((c : Thread nD τ).loc b)) (c : Dev nD) :
    (Pad.dat (F := Ideal) V c).arrAt 1 cfg1.N = Cert.Spec.padG (Scalar.ofBits .f32 0x00000000#32 : Ideal .f32) (V c main_v5) :=
  (Pad.dat (F := Ideal) V c).arrAt_eq_of_cover 1 (Cert.Spec.padG (zeroF (F := Ideal)) (V c main_v5))
    (fun t _ => flushed_eq V c t) cover

end Cert.KernelIdeal.PadValue

end
-- ==== Proof.LibScatterSet.lean ====
/-
  Reading a scatter whose body returns the update ("set") at one index.

  A scatter is a left fold, over the update indices in some fixed order, of point updates: update index `n` is sent
  to a result index `g n` (or dropped), and the array is changed there and nowhere else. Reading such a fold at a
  fixed result index `k` needs no evaluation of the fold: if no update index of the list is sent to `k` the start
  value stays; if exactly one is, its update is what is read. The lemmas below say this for any list and any step
  that changes only the place it is sent to, then for the host's scatter with the body `fun _ b => b`.
-/
import Idealize.ShloMosaic.PureOps.ShapeOps

namespace Cert.Lib.ScatterSet

open Idealize.ShloMosaic

/-- A left fold of point updates read at a place `k` that no element of the list is sent to: the start value
    at `k`. `step r n` may change `r` only at `g n` (hypothesis `hne`: where `g n` is not `k`, it leaves `k`
    alone). -/
theorem foldl_apply_of_forall_ne {ι κ α : Type} (step : (κ → α) → ι → (κ → α)) (g : ι → Option κ) (k : κ)
    (hne : ∀ r n, g n ≠ some k → step r n k = r k) :
    ∀ (l : List ι) (r : κ → α), (∀ n ∈ l, g n ≠ some k) → l.foldl step r k = r k
  | [], _, _ => rfl
  | n :: l, r, h => by
    rw [List.foldl_cons,
      foldl_apply_of_forall_ne step g k hne l (step r n) (fun m hm => h m (List.mem_cons_of_mem _ hm))]
    exact hne r n (h n (List.mem_cons.2 (Or.inl rfl)))

/-- A left fold of point updates that SET their place (`hset`: an element sent to `k` leaves its value `v n`
    there), read at a place `k` that exactly one element `n0` of the list is sent to: that element's value.
    The list may repeat `n0`. -/
theorem foldl_set_apply_of_unique {ι κ α : Type} (step : (κ → α) → ι → (κ → α)) (g : ι → Option κ) (v : ι → α)
    (k : κ) (hne : ∀ r n, g n ≠ some k → step r n k = r k) (hset : ∀ r n, g n = some k → step r n k = v n)
    (n0 : ι) (h0 : g n0 = some k) :
    ∀ (l : List ι) (r : κ → α), n0 ∈ l → (∀ n ∈ l, g n = some k → n = n0) → l.foldl step r k = v n0
  | [], _, hmem, _ => absurd hmem (List.not_mem_nil)
  | n :: l, r, hmem, huniq => by
    rw [List.foldl_cons]
    by_cases hl : n0 ∈ l
    · exact foldl_set_apply_of_unique step g v k hne hset n0 h0 l (step r n) hl
        (fun m hm hg => huniq m (List.mem_cons_of_mem _ hm) hg)
    · have hn : n = n0 := by
        rcases List.mem_cons.1 hmem with h | h
        · exact h.symm
        · exact absurd h hl
      rw [foldl_apply_of_forall_ne step g k hne l (step r n) (fun m hm hg =>
        hl (huniq m (List.mem_cons_of_mem _ hm) hg ▸ hm))]
      rw [hn]
      exact hset r n0 h0

/-- A left fold of point updates that COMBINE the old value at their place with their own by `f` (`hhit`), over
    a list without repeats, read at a place `k` that exactly one element `n0` of the list is sent to: `f` of the
    start value at `k` and that element's value. -/
theorem foldl_apply_of_unique {ι κ α : Type} (step : (κ → α) → ι → (κ → α)) (g : ι → Option κ) (v : ι → α)
    (f : α → α → α) (k : κ) (hne : ∀ r n, g n ≠ some k → step r n k = r k)
    (hhit : ∀ r n, g n = some k → step r n k = f (r k) (v n)) (n0 : ι) (h0 : g n0 = some k) :
    ∀ (l : List ι) (r : κ → α), l.Nodup → n0 ∈ l → (∀ n ∈ l, g n = some k → n = n0) →
      l.foldl step r k = f (r k) (v n0)
  | [], _, _, hmem, _ => absurd hmem (List.not_mem_nil)
  | n :: l, r, hnd, hmem, huniq => by
    rw [List.foldl_cons]
    have hnl : n ∉ l := (List.nodup_cons.1 hnd).1
    have hndl : l.Nodup := (List.nodup_cons.1 hnd).2
    by_cases hn : n = n0
    · have hl : n0 ∉ l := hn ▸ hnl
      rw [foldl_apply_of_forall_ne step g k hne l (step r n) (fun m hm hg =>
        hl (huniq m (List.mem_cons_of_mem _ hm) hg ▸ hm))]
      rw [hn]
      exact hhit r n0 h0
    · have hl : n0 ∈ l := by
        rcases List.mem_cons.1 hmem with h | h
        · exact absurd h.symm hn
        · exact h
      have hgn : g n ≠ some k := fun hg => hn (huniq n (List.mem_cons.2 (Or.inl rfl)) hg)
      rw [foldl_apply_of_unique step g v f k hne hhit n0 h0 l (step r n) hndl hl
        (fun m hm hg => huniq m (List.mem_cons_of_mem _ hm) hg), hne r n hgn]

section Scatter

variable {α : Type} {s si u : Shape} {w : Nat}

/-- One step of the host's scatter leaves every place but the one its update index is sent to. -/
theorem scatter_step_apply_ne (d : ScatterDims s si u) (f : α → α → α) (idx : IVec si w) (upd : u.Idx → α)
    (k : s.Idx) (r : s.Idx → α) (n : Fin u.numel) (hn : d.resultIdx? (u.rowMajor.symm n) idx ≠ some k) :
    (match d.resultIdx? (u.rowMajor.symm n) idx with
      | some i => fun i' => if i' = i then f (r i) (upd (u.rowMajor.symm n)) else r i'
      | none => r) k = r k := by
  cases hg : d.resultIdx? (u.rowMajor.symm n) idx with
  | none => rfl
  | some i =>
    have hki : k ≠ i := fun h => hn (by rw [hg, h])
    show (if k = i then f (r i) (upd (u.rowMajor.symm n)) else r k) = r k
    rw [if_neg hki]

/-- One step of the host's scatter combines, at the place its update index is sent to, the old value with the
    update by the body. -/
theorem scatter_step_apply_hit (d : ScatterDims s si u) (f : α → α → α) (idx : IVec si w) (upd : u.Idx → α)
    (k : s.Idx) (r : s.Idx → α) (n : Fin u.numel) (hn : d.resultIdx? (u.rowMajor.symm n) idx = some k) :
    (match d.resultIdx? (u.rowMajor.symm n) idx with
      | some i => fun i' => if i' = i then f (r i) (upd (u.rowMajor.symm n)) else r i'
      | none => r) k = f (r k) (upd (u.rowMajor.symm n)) := by
  rw [hn]
  show (if k = k then f (r k) (upd (u.rowMajor.symm n)) else r k) = f (r k) (upd (u.rowMajor.symm n))
  rw [if_pos rfl]

/-- The host's scatter read at a result index that no update index is sent to: the operand there. Any body. -/
theorem scatter_apply_miss (d : ScatterDims s si u) (f : α → α → α) (x : s.Idx → α) (idx : IVec si w)
    (upd : u.Idx → α) (i : s.Idx) (hmiss : ∀ j', d.resultIdx? j' idx ≠ some i) :
    Host.scatter d f x idx upd i = x i := by
  unfold Host.scatter
  exact foldl_apply_of_forall_ne _ (fun n => d.resultIdx? (u.rowMajor.symm n) idx) i
    (fun r n hn => scatter_step_apply_ne d f idx upd i r n hn) (List.finRange u.numel) x
    (fun n _ => hmiss (u.rowMajor.symm n))

/-- The host's scatter read at a result index that exactly one update index `j` is sent to: the body applied to
    the operand there and the update at `j`. Any body (each update index is met once). -/
theorem scatter_apply_hit (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  have h0 : d.resultIdx? (u.rowMajor.symm (u.rowMajor j)) idx = some i := by
    rw [Equiv.symm_apply_apply]; exact hj
  have key := foldl_apply_of_unique _ (fun n => d.resultIdx? (u.rowMajor.symm n) idx)
    (fun n => upd (u.rowMajor.symm n)) f i
    (fun r n hn => scatter_step_apply_ne d f idx upd i r n hn)
    (fun r n hn => scatter_step_apply_hit d f idx upd i r n hn)
    (u.rowMajor j) h0 (List.finRange u.numel) x (List.nodup_finRange _) (List.mem_finRange _)
    (fun n _ hg => by
      have := huniq (u.rowMajor.symm n) hg
      rw [← this, Equiv.apply_symm_apply])
  exact key.trans (by rw [Equiv.symm_apply_apply])

/-- A "set" scatter (the body returns the update) read at a result index that exactly one update index `j` is
    sent to: the update at `j`. -/
theorem scatter_set_apply_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j :=
  scatter_apply_hit d (fun _ b => b) x idx upd i j hj huniq

/-- A "set" scatter read at a result index that no update index is sent to: the operand there. -/
theorem scatter_set_apply_miss (d : ScatterDims s si u) (x : s.Idx → α) (idx : IVec si w) (upd : u.Idx → α)
    (i : s.Idx) (hmiss : ∀ j', d.resultIdx? j' idx ≠ some i) :
    Host.scatter d (fun _ b => b) x idx upd i = x i :=
  scatter_apply_miss d (fun _ b => b) x idx upd i hmiss

/-- An update index is sent to the result index `i` when, on every axis, its window's start plus its window
    coordinate is `i`'s coordinate. -/
theorem resultIdx?_eq_some (d : ScatterDims s si u) (j : u.Idx) (idx : IVec si w) (i : s.Idx)
    (h : ∀ a, d.start j idx a + (d.window j a : Int) = ((i a).val : Int)) : d.resultIdx? j idx = some i := by
  have H : ∀ a, 0 ≤ d.start j idx a + (d.window j a : Int) ∧ d.start j idx a + (d.window j a : Int) < (s.size a : Int) :=
    fun a => by
      rw [h a]
      exact ⟨Int.natCast_nonneg _, Int.ofNat_lt.2 (i a).isLt⟩
  unfold ScatterDims.resultIdx?
  rw [dif_pos H]
  refine congrArg some (funext fun a => Fin.ext ?_)
  show (d.start j idx a + (d.window j a : Int)).toNat = (i a).val
  rw [h a]
  exact Int.toNat_natCast _

/-- Conversely: if an update index is sent to the result index `i`, then on every axis its window's start plus
    its window coordinate is `i`'s coordinate. -/
theorem sum_eq_of_resultIdx?_eq_some (d : ScatterDims s si u) (j : u.Idx) (idx : IVec si w) (i : s.Idx)
    (h : d.resultIdx? j idx = some i) (a : Fin s.rank) :
    d.start j idx a + (d.window j a : Int) = ((i a).val : Int) := by
  unfold ScatterDims.resultIdx? at h
  by_cases H : ∀ a, 0 ≤ d.start j idx a + (d.window j a : Int) ∧ d.start j idx a + (d.window j a : Int) < (s.size a : Int)
  · rw [dif_pos H] at h
    have e := Option.some.inj h
    rw [← e]
    show d.start j idx a + (d.window j a : Int) = (((d.start j idx a + (d.window j a : Int)).toNat : Nat) : Int)
    rw [Int.toNat_of_nonneg (H a).1]
  · rw [dif_neg H] at h
    exact absurd h (by simp)

end Scatter

end Cert.Lib.ScatterSet
-- ==== Proof.RefValue.lean ====
/-
  The reference program's two whole-array values, against the shared specification.

  `ref_flat`: the projected field before the reshape is `flatG` of the scaled coefficients, the basis and the
  offset row: entry (b, n) is Σ_k lz[b, k] · U[k, n] + mu[0, n].

  `ref_pad`: the reference lays the reshaped field into zero cubes by two "set" scatters, each with ONE scatter
  index: slabs 0..31 of every block at the start (0, 32, 32) of the cube's last three axes, slabs 32..63 at
  (96, 32, 32). An update index (b, c, d, h, w) of a scatter with start (s, 32, 32) lands on the cube index
  (b, c, s + d, 32 + h, 32 + w), always inside the cube; so a cube index is met by at most one update index, the one
  with d = depth − s, h = row − 32, w = column − 32, and only when those are in range. Reading the outer scatter
  (s = 96) and then the inner one (s = 0) at a cube index gives the three cases of `padG`.
-/
import proofs.«160098_j807453852263_1_alg».proof.Proof.Gen.ReferenceIdeal.Read
import proofs.«160098_j807453852263_1_alg».proof.Proof.Spec
import proofs.«160098_j807453852263_1_alg».proof.Proof.LibScatterSet

noncomputable section

namespace Cert.ReferenceIdeal.RefValue

open Cert.ReferenceIdeal Cert.ReferenceIdeal.Read Cert.ReferenceIdeal.Gen Idealize.ShloMosaic Cert.Lib.ScatterSet

variable {F : FTy → Type} [FloatOps F]

local notation "dS" => scatter_S8x4x128x128x128_S3_S8x4x32x64x64_01234_n_234_0

/-! ## The scatter's dimension numbers on the literal shapes

Window axes 0..4 of the update go to operand axes 0..4 in order (nothing inserted); the one scatter index is a
3-vector whose components start the window on operand axes 2, 3, 4. -/

/-- Component `c` of the start index is read at position `c` of the index vector. -/
theorem siIdx_val (j : S8x4x32x64x64.Idx) (c : Fin (ScatterDims.scatterDimsToOperandDims dS).length) :
    (ScatterDims.siIdx dS j c 0).val = c.val := rfl

theorem start_0 (j : S8x4x32x64x64.Idx) (idx : IVec S3 32) : ScatterDims.start dS j idx 0 = 0 := by
  unfold ScatterDims.start; rw [dif_neg (by decide)]
theorem start_1 (j : S8x4x32x64x64.Idx) (idx : IVec S3 32) : ScatterDims.start dS j idx 1 = 0 := by
  unfold ScatterDims.start; rw [dif_neg (by decide)]
theorem start_2 (j : S8x4x32x64x64.Idx) (idx : IVec S3 32) :
    ScatterDims.start dS j idx 2 = (idx (ScatterDims.siIdx dS j ⟨0, by decide⟩)).toInt := by
  unfold ScatterDims.start; rw [dif_pos (by decide)]; rfl
theorem start_3 (j : S8x4x32x64x64.Idx) (idx : IVec S3 32) :
    ScatterDims.start dS j idx 3 = (idx (ScatterDims.siIdx dS j ⟨1, by decide⟩)).toInt := by
  unfold ScatterDims.start; rw [dif_pos (by decide)]; rfl
theorem start_4 (j : S8x4x32x64x64.Idx) (idx : IVec S3 32) :
    ScatterDims.start dS j idx 4 = (idx (ScatterDims.siIdx dS j ⟨2, by decide⟩)).toInt := by
  unfold ScatterDims.start; rw [dif_pos (by decide)]; rfl

theorem window_0 (j : S8x4x32x64x64.Idx) : ScatterDims.window dS j 0 = (j 0).val := by
  unfold ScatterDims.window; rw [dif_pos (by decide)]; rfl
theorem window_1 (j : S8x4x32x64x64.Idx) : ScatterDims.window dS j 1 = (j 1).val := by
  unfold ScatterDims.window; rw [dif_pos (by decide)]; rfl
theorem window_2 (j : S8x4x32x64x64.Idx) : ScatterDims.window dS j 2 = (j 2).val := by
  unfold ScatterDims.window; rw [dif_pos (by decide)]; rfl
theorem window_3 (j : S8x4x32x64x64.Idx) : ScatterDims.window dS j 3 = (j 3).val := by
  unfold ScatterDims.window; rw [dif_pos (by decide)]; rfl
theorem window_4 (j : S8x4x32x64x64.Idx) : ScatterDims.window dS j 4 = (j 4).val := by
  unfold ScatterDims.window; rw [dif_pos (by decide)]; rfl

/-! ## The two index vectors -/

/-- A concatenation of three one-element vectors read at an index: the piece its coordinate names. -/
theorem concat3_at {α : Type} (a b c : S1.Idx → α) (q : S3.Idx) (k : Nat) (hk : (q 0).val = k) :
    concatenate S3 0 [⟨S1, a⟩, ⟨S1, b⟩, ⟨S1, c⟩] concatenates_S1_S1_S1_S3_d0 q
      = if k = 0 then a (ValueIdx.ix1 (⟨0, Nat.one_pos⟩ : Fin 1))
        else if k = 1 then b (ValueIdx.ix1 (⟨0, Nat.one_pos⟩ : Fin 1))
        else c (ValueIdx.ix1 (⟨0, Nat.one_pos⟩ : Fin 1)) := by
  have hq : (q 0).val < 3 := (q 0).isLt
  have hi : ∀ b' : Fin S1.rank, b'.cast (rfl : S1.rank = S3.rank) ≠ (0 : Fin S3.rank) →
      ((ValueIdx.ix1 (⟨0, Nat.one_pos⟩ : Fin 1) : S1.Idx) b').val = (q (b'.cast (rfl : S1.rank = S3.rank))).val :=
    fun b' hb => absurd (Subsingleton.elim _ _) hb
  by_cases h0 : k = 0
  · rw [if_pos h0]
    exact concatenate_apply_piece (0 : Fin S3.rank) [⟨S1, a⟩, ⟨S1, b⟩, ⟨S1, c⟩] concatenates_S1_S1_S1_S3_d0 q 0
      (Nat.zero_lt_succ _) S1 a rfl rfl 0 rfl (ValueIdx.ix1 (⟨0, Nat.one_pos⟩ : Fin 1)) hi
      (by show 0 + 0 = (q 0).val; omega)
  · rw [if_neg h0]
    by_cases h1 : k = 1
    · rw [if_pos h1]
      exact concatenate_apply_piece (0 : Fin S3.rank) [⟨S1, a⟩, ⟨S1, b⟩, ⟨S1, c⟩] concatenates_S1_S1_S1_S3_d0 q 1
        (Nat.succ_lt_succ (Nat.zero_lt_succ _)) S1 b rfl rfl 1 rfl (ValueIdx.ix1 (⟨0, Nat.one_pos⟩ : Fin 1)) hi
        (by show 1 + 0 = (q 0).val; omega)
    · rw [if_neg h1]
      exact concatenate_apply_piece (0 : Fin S3.rank) [⟨S1, a⟩, ⟨S1, b⟩, ⟨S1, c⟩] concatenates_S1_S1_S1_S3_d0 q 2
        (Nat.succ_lt_succ (Nat.succ_lt_succ (Nat.zero_lt_succ _))) S1 c rfl rfl 2 rfl
        (ValueIdx.ix1 (⟨0, Nat.one_pos⟩ : Fin 1)) hi (by show 2 + 0 = (q 0).val; omega)

/-- The first scatter's index vector is (0, 32, 32). -/
theorem v13_at (q : S3.Idx) (k : Nat) (hk : (q 0).val = k) :
    val_main_v13 (F := F) q = if k = 0 then 0#32 else 32#32 := by
  unfold val_main_v13
  rw [concat3_at _ _ _ q k hk, val_main_v10_apply, val_main_c_apply, val_main_v11_apply, val_main_c_0_apply,
    val_main_v12_apply, val_main_c_1_apply]
  by_cases h0 : k = 0
  · rw [if_pos h0, if_pos h0]
  · rw [if_neg h0, if_neg h0]; split <;> rfl

/-- The second scatter's index vector is (96, 32, 32). -/
theorem v19_at (q : S3.Idx) (k : Nat) (hk : (q 0).val = k) :
    val_main_v19 (F := F) q = if k = 0 then 96#32 else 32#32 := by
  unfold val_main_v19
  rw [concat3_at _ _ _ q k hk, val_main_v16_apply, val_main_c_2_apply, val_main_v17_apply, val_main_c_3_apply,
    val_main_v18_apply, val_main_c_4_apply]
  by_cases h0 : k = 0
  · rw [if_pos h0, if_pos h0]
  · rw [if_neg h0, if_neg h0]; split <;> rfl

/-! ## Where an update index lands, for an index vector (c, 32, 32) -/

section Lands

variable (idx : IVec S3 32) (c : BitVec 32) (cz : Nat) (hc : c.toInt = (cz : Int))
  (hidx : ∀ (q : S3.Idx) (k : Nat), (q 0).val = k → idx q = if k = 0 then c else 32#32)

theorem sum_0 (j : S8x4x32x64x64.Idx) :
    ScatterDims.start dS j idx 0 + (ScatterDims.window dS j 0 : Int) = ((j 0).val : Int) := by
  rw [start_0, window_0, Int.zero_add]
theorem sum_1 (j : S8x4x32x64x64.Idx) :
    ScatterDims.start dS j idx 1 + (ScatterDims.window dS j 1 : Int) = ((j 1).val : Int) := by
  rw [start_1, window_1, Int.zero_add]
include hc hidx in
theorem sum_2 (j : S8x4x32x64x64.Idx) :
    ScatterDims.start dS j idx 2 + (ScatterDims.window dS j 2 : Int) = (cz : Int) + ((j 2).val : Int) := by
  rw [start_2, window_2, hidx (ScatterDims.siIdx dS j ⟨0, by decide⟩) 0 (siIdx_val j ⟨0, by decide⟩), if_pos rfl, hc]
include hidx in
theorem sum_3 (j : S8x4x32x64x64.Idx) :
    ScatterDims.start dS j idx 3 + (ScatterDims.window dS j 3 : Int) = 32 + ((j 3).val : Int) := by
  have h32 : (32#32 : BitVec 32).toInt = 32 := by decide
  rw [start_3, window_3, hidx (ScatterDims.siIdx dS j ⟨1, by decide⟩) 1 (siIdx_val j ⟨1, by decide⟩),
    if_neg (by decide), h32]
include hidx in
theorem sum_4 (j : S8x4x32x64x64.Idx) :
    ScatterDims.start dS j idx 4 + (ScatterDims.window dS j 4 : Int) = 32 + ((j 4).val : Int) := by
  have h32 : (32#32 : BitVec 32).toInt = 32 := by decide
  rw [start_4, window_4, hidx (ScatterDims.siIdx dS j ⟨2, by decide⟩) 2 (siIdx_val j ⟨2, by decide⟩),
    if_neg (by decide), h32]

include hc hidx in
/-- Update index (b, c, d, h, w) lands exactly on the cube index (b, c, cz + d, 32 + h, 32 + w). -/
theorem lands_iff (j : S8x4x32x64x64.Idx) (i : S8x4x128x128x128.Idx) :
    ScatterDims.resultIdx? dS j idx = some i ↔
      (i 0).val = (j 0).val ∧ (i 1).val = (j 1).val ∧ (i 2).val = cz + (j 2).val ∧
        (i 3).val = 32 + (j 3).val ∧ (i 4).val = 32 + (j 4).val := by
  constructor
  · intro h
    have s0 := sum_eq_of_resultIdx?_eq_some dS j idx i h 0
    have s1 := sum_eq_of_resultIdx?_eq_some dS j idx i h 1
    have s2 := sum_eq_of_resultIdx?_eq_some dS j idx i h 2
    have s3 := sum_eq_of_resultIdx?_eq_some dS j idx i h 3
    have s4 := sum_eq_of_resultIdx?_eq_some dS j idx i h 4
    rw [sum_0 idx j] at s0
    rw [sum_1 idx j] at s1
    rw [sum_2 idx c cz hc hidx j] at s2
    rw [sum_3 idx c hidx j] at s3
    rw [sum_4 idx c hidx j] at s4
    exact ⟨by omega, by omega, by omega, by omega, by omega⟩
  · rintro ⟨e0, e1, e2, e3, e4⟩
    refine resultIdx?_eq_some dS j idx i (fun a => ?_)
    match a with
    | ⟨0, _⟩ => exact (sum_0 idx j).trans (by show ((j 0).val : Int) = ((i 0).val : Int); omega)
    | ⟨1, _⟩ => exact (sum_1 idx j).trans (by show ((j 1).val : Int) = ((i 1).val : Int); omega)
    | ⟨2, _⟩ => exact (sum_2 idx c cz hc hidx j).trans (by show (cz : Int) + ((j 2).val : Int) = ((i 2).val : Int); omega)
    | ⟨3, _⟩ => exact (sum_3 idx c hidx j).trans (by show 32 + ((j 3).val : Int) = ((i 3).val : Int); omega)
    | ⟨4, _⟩ => exact (sum_4 idx c hidx j).trans (by show 32 + ((j 4).val : Int) = ((i 4).val : Int); omega)

end Lands

/-- Two rank-5 indices with the same coordinates are equal. -/
theorem idx5_ext {n0 n1 n2 n3 n4 : Nat} (p q : (⟨5, ![n0, n1, n2, n3, n4]⟩ : Shape).Idx)
    (h0 : (p 0).val = (q 0).val) (h1 : (p 1).val = (q 1).val) (h2 : (p 2).val = (q 2).val)
    (h3 : (p 3).val = (q 3).val) (h4 : (p 4).val = (q 4).val) : p = q := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-! ## The two scatters are the block-pad -/

/-- Two "set" scatters with the index vectors (0, 32, 32) and (96, 32, 32), of the lower and the upper half-blocks
    of a field `y`, into cubes that hold `z` everywhere: the block-pad of `y`. -/
theorem pad_of_two_scatters {α : Type} (z : α) (y : S8x4x64x64x64.Idx → α) (x8 : S8x4x128x128x128.Idx → α)
    (u9 u15 : S8x4x32x64x64.Idx → α) (i13 i19 : IVec S3 32)
    (h13 : ∀ (q : S3.Idx) (k : Nat), (q 0).val = k → i13 q = if k = 0 then 0#32 else 32#32)
    (h19 : ∀ (q : S3.Idx) (k : Nat), (q 0).val = k → i19 q = if k = 0 then 96#32 else 32#32)
    (h8 : ∀ i, x8 i = z) (h9 : ∀ j, u9 j = y (idx_main_v9 j)) (h15 : ∀ j, u15 j = y (idx_main_v15 j)) :
    Host.scatter dS (fun _ b => b) (Host.scatter dS (fun _ b => b) x8 i13 u9) i19 u15 = Cert.Spec.padG z y := by
  have c0 : (0#32 : BitVec 32).toInt = ((0 : Nat) : Int) := by decide
  have c96 : (96#32 : BitVec 32).toInt = ((96 : Nat) : Int) := by decide
  funext i
  have b0 : (i 0).val < 8 := (i 0).isLt
  have b1 : (i 1).val < 4 := (i 1).isLt
  have b2 : (i 2).val < 128 := (i 2).isLt
  have b3 : (i 3).val < 128 := (i 3).isLt
  have b4 : (i 4).val < 128 := (i 4).isLt
  by_cases hHi : Cert.Spec.inHi i
  · -- the upper place: the outer scatter writes it
    have hd := hHi.1; have hh0 := hHi.2.1; have hh1 := hHi.2.2.1; have hw0 := hHi.2.2.2.1; have hw1 := hHi.2.2.2.2
    obtain ⟨j, hj0, hj1, hj2, hj3, hj4⟩ : ∃ j : S8x4x32x64x64.Idx, (j 0).val = (i 0).val ∧ (j 1).val = (i 1).val ∧
        (j 2).val = (i 2).val - 96 ∧ (j 3).val = (i 3).val - 32 ∧ (j 4).val = (i 4).val - 32 :=
      ⟨ValueIdx.ix5 (⟨(i 0).val, b0⟩ : Fin 8) (⟨(i 1).val, b1⟩ : Fin 4) (⟨(i 2).val - 96, by omega⟩ : Fin 32)
        (⟨(i 3).val - 32, by omega⟩ : Fin 64) (⟨(i 4).val - 32, by omega⟩ : Fin 64), rfl, rfl, rfl, rfl, rfl⟩
    rw [Cert.Spec.padG_hi z y i hHi,
      scatter_set_apply_hit dS _ i19 u15 i j
        ((lands_iff i19 (96#32) 96 c96 h19 j i).2 ⟨by omega, by omega, by omega, by omega, by omega⟩)
        (fun j' hj' => by
          have e := (lands_iff i19 (96#32) 96 c96 h19 j' i).1 hj'
          exact idx5_ext j' j (by omega) (by omega) (by omega) (by omega) (by omega)),
      h15 j]
    refine congrArg y (idx5_ext _ _ ?_ ?_ ?_ ?_ ?_)
    · show (j 0).val = (i 0).val; omega
    · show (j 1).val = (i 1).val; omega
    · show 32 + (j 2).val = (i 2).val - 64; omega
    · show (j 3).val = (i 3).val - 32; omega
    · show (j 4).val = (i 4).val - 32; omega
  · -- outside the upper place the outer scatter leaves the inner one's result
    rw [scatter_set_apply_miss dS _ i19 u15 i (fun j' hj' => hHi (by
      have e := (lands_iff i19 (96#32) 96 c96 h19 j' i).1 hj'
      have d2 : (j' 2).val < 32 := (j' 2).isLt
      have d3 : (j' 3).val < 64 := (j' 3).isLt
      have d4 : (j' 4).val < 64 := (j' 4).isLt
      show 96 ≤ (i 2).val ∧ 32 ≤ (i 3).val ∧ (i 3).val < 96 ∧ 32 ≤ (i 4).val ∧ (i 4).val < 96
      omega))]
    by_cases hLo : Cert.Spec.inLo i
    · -- the lower place: the inner scatter writes it
      have hd := hLo.1; have hh0 := hLo.2.1; have hh1 := hLo.2.2.1; have hw0 := hLo.2.2.2.1; have hw1 := hLo.2.2.2.2
      obtain ⟨j, hj0, hj1, hj2, hj3, hj4⟩ : ∃ j : S8x4x32x64x64.Idx, (j 0).val = (i 0).val ∧ (j 1).val = (i 1).val ∧
          (j 2).val = (i 2).val ∧ (j 3).val = (i 3).val - 32 ∧ (j 4).val = (i 4).val - 32 :=
        ⟨ValueIdx.ix5 (⟨(i 0).val, b0⟩ : Fin 8) (⟨(i 1).val, b1⟩ : Fin 4) (⟨(i 2).val, by omega⟩ : Fin 32)
          (⟨(i 3).val - 32, by omega⟩ : Fin 64) (⟨(i 4).val - 32, by omega⟩ : Fin 64), rfl, rfl, rfl, rfl, rfl⟩
      rw [Cert.Spec.padG_lo z y i hLo,
        scatter_set_apply_hit dS x8 i13 u9 i j
          ((lands_iff i13 (0#32) 0 c0 h13 j i).2 ⟨by omega, by omega, by omega, by omega, by omega⟩)
          (fun j' hj' => by
            have e := (lands_iff i13 (0#32) 0 c0 h13 j' i).1 hj'
            exact idx5_ext j' j (by omega) (by omega) (by omega) (by omega) (by omega)),
        h9 j]
      refine congrArg y (idx5_ext _ _ ?_ ?_ ?_ ?_ ?_)
      · show (j 0).val = (i 0).val; omega
      · show (j 1).val = (i 1).val; omega
      · show (j 2).val = (i 2).val; omega
      · show (j 3).val = (i 3).val - 32; omega
      · show (j 4).val = (i 4).val - 32; omega
    · -- everywhere else the cube keeps its fill
      rw [Cert.Spec.padG_out z y i hLo hHi,
        scatter_set_apply_miss dS x8 i13 u9 i (fun j' hj' => hLo (by
          have e := (lands_iff i13 (0#32) 0 c0 h13 j' i).1 hj'
          have d2 : (j' 2).val < 32 := (j' 2).isLt
          have d3 : (j' 3).val < 64 := (j' 3).isLt
          have d4 : (j' 4).val < 64 := (j' 4).isLt
          show (i 2).val < 32 ∧ 32 ≤ (i 3).val ∧ (i 3).val < 96 ∧ 32 ≤ (i 4).val ∧ (i 4).val < 96
          omega)),
        h8 i]

/-- The reference's padded result is the block-pad of its reshaped field into zero cubes (any float family). -/
theorem ref_pad_gen (x0 : (⟨S8x64, .f32⟩ : BufTy).Contents (Elt F)) (x1 : (⟨S64x1048576, .f32⟩ : BufTy).Contents (Elt F))
    (x2 : (⟨S64, .f32⟩ : BufTy).Contents (Elt F)) (x3 : (⟨S1048576, .f32⟩ : BufTy).Contents (Elt F)) :
    val_main_v20 (F := F) x0 x1 x2 x3
      = Cert.Spec.padG (val_main_cst (F := F) ValueIdx.ix0) (val_main_v7 (F := F) x0 x1 x2 x3) := by
  unfold val_main_v20 val_main_v14
  exact pad_of_two_scatters (val_main_cst (F := F) ValueIdx.ix0) (val_main_v7 (F := F) x0 x1 x2 x3)
    (val_main_v8 (F := F)) (val_main_v9 (F := F) x0 x1 x2 x3) (val_main_v15 (F := F) x0 x1 x2 x3)
    (val_main_v13 (F := F)) (val_main_v19 (F := F)) v13_at v19_at
    (fun i => by rw [val_main_v8_apply])
    (val_main_v9_apply x0 x1 x2 x3) (val_main_v15_apply x0 x1 x2 x3)

/-- The reference's padded result is the block-pad of its reshaped field into zero cubes. -/
theorem ref_pad (x0 : (⟨S8x64, .f32⟩ : BufTy).Contents (Elt Ideal)) (x1 : (⟨S64x1048576, .f32⟩ : BufTy).Contents (Elt Ideal))
    (x2 : (⟨S64, .f32⟩ : BufTy).Contents (Elt Ideal)) (x3 : (⟨S1048576, .f32⟩ : BufTy).Contents (Elt Ideal)) :
    val_main_v20 (F := Ideal) x0 x1 x2 x3
      = Cert.Spec.padG (val_main_cst (F := Ideal) ValueIdx.ix0) (val_main_v7 (F := Ideal) x0 x1 x2 x3) :=
  ref_pad_gen x0 x1 x2 x3

/-! ## The projected field -/

/-- The reference's field before the reshape is `flatG`: entry (b, n) is Σ_k lz[b, k] · U[k, n] + mu[0, n]. -/
theorem ref_flat (x0 : (⟨S8x64, .f32⟩ : BufTy).Contents (Elt Ideal)) (x1 : (⟨S64x1048576, .f32⟩ : BufTy).Contents (Elt Ideal))
    (x2 : (⟨S64, .f32⟩ : BufTy).Contents (Elt Ideal)) (x3 : (⟨S1048576, .f32⟩ : BufTy).Contents (Elt Ideal)) :
    val_main_v6 (F := Ideal) x0 x1 x2 x3
      = Cert.Spec.flatG (val_main_v2 (F := Ideal) x0 x2) x1 (val_main_v4 (F := Ideal) x3) := by
  funext i
  rw [val_main_v6_apply, val_main_v3_apply, val_main_v5_apply]
  generalize val_main_v2 (F := Ideal) x0 x2 = lz
  generalize val_main_v4 (F := Ideal) x3 = mu
  unfold Cert.Spec.flatG
  have el : ∀ k : Fin 64, lidx_main_v3 i k = ValueIdx.ix2 (⟨(i 0).val, (i 0).isLt⟩ : Fin 8) k := fun k =>
    funext fun a => match a with
      | ⟨0, _⟩ => rfl
      | ⟨1, _⟩ => rfl
  have er : ∀ k : Fin 64, ridx_main_v3 i k = ValueIdx.ix2 k (⟨(i 1).val, (i 1).isLt⟩ : Fin 1048576) := fun k =>
    funext fun a => match a with
      | ⟨0, _⟩ => rfl
      | ⟨1, _⟩ => rfl
  have em : idx_main_v5 i = ValueIdx.ix2 (⟨0, Nat.one_pos⟩ : Fin 1) (⟨(i 1).val, (i 1).isLt⟩ : Fin 1048576) :=
    funext fun a => match a with
      | ⟨0, _⟩ => rfl
      | ⟨1, _⟩ => rfl
  rw [em]
  simp only [el, er]
  rfl

end Cert.ReferenceIdeal.RefValue

end
-- ==== Proof.Bridge.lean ====
/-
  The bridge between the two programs at the ideal instance, and the five claims.

  Kernel side: the block-pad region leaves the block-pad (fill value zero) of the array it was handed; that array is
  the projection region's result recast in blocks; the projection region's result is the projected field
  Σ_k lz[b, k] · U[k, n] + mu[0, n] of the operands it was handed, which the host operations before it make L ⊙ z, the
  basis as launched, and the offset recast as a row. Reference side: its two scatters of the half-blocks into zeros
  are the same block-pad of its reshaped field, and its field (a dot_general plus the broadcast offset) is the same
  projected field. The only differences are spelling: the offset as a row is a reshape on one side and a broadcast
  along a new unit axis on the other (equal entry by entry), and the two zeros are one constant. No law of the
  extended reals beyond reflexivity is used: both sides form the same sums of the same products in the same order.
-/
import proofs.«160098_j807453852263_1_alg».proof.Defs
import proofs.«160098_j807453852263_1_alg».proof.Proof.Whole
import proofs.«160098_j807453852263_1_alg».proof.Proof.KernelWhole
import proofs.«160098_j807453852263_1_alg».proof.Proof.HostValue
import proofs.«160098_j807453852263_1_alg».proof.Proof.ProjValue
import proofs.«160098_j807453852263_1_alg».proof.Proof.PadValue
import proofs.«160098_j807453852263_1_alg».proof.Proof.RefValue
import proofs.«160098_j807453852263_1_alg».proof.Proof.Spec
import proofs.«160098_j807453852263_1_alg».proof.Proof.Gen.ReferenceIdeal.Run
import proofs.«160098_j807453852263_1_alg».proof.Proof.Gen.ReferenceIdeal.Read
import proofs.«160098_j807453852263_1_alg».proof.Proof.Gen.Pre_finite_inputs
import Idealize.ShloMosaic.Lib.Pipeline.Value
import Idealize.ShloMosaic.Lib.ValueIdx

noncomputable section

open Idealize.ShloMosaic Idealize.ShloMosaic.TcCoe Idealize.SL.Sem

namespace Cert.Proof.Bridge

open Cert.KernelIdeal Cert.KernelIdeal.Gen

/-- The kernel's fill value and the reference's are the same zero. -/
theorem zero_eq : (Cert.ReferenceIdeal.Read.val_main_cst (F := Ideal) ValueIdx.ix0) = (Scalar.ofBits .f32 0x00000000#32 : Ideal .f32) := rfl

/-- The offset as a 1 × n row: recasting the vector, and broadcasting it along a new leading axis of size one,
    agree — entry (0, n) of either is entry n of the vector. -/
theorem row_eq (x3 : (⟨S1048576, .f32⟩ : BufTy).Contents (Elt Ideal)) :
    (shapeCast S1x1048576 x3 shapeCasts_S1048576_S1x1048576 : (⟨S1x1048576, .f32⟩ : BufTy).Contents (Elt Ideal))
      = Cert.ReferenceIdeal.Read.val_main_v4 (F := Ideal) x3 := by
  funext i
  rw [Cert.ReferenceIdeal.Read.val_main_v4_apply]
  refine shapeCast_apply x3 shapeCasts_S1048576_S1x1048576 i (Cert.ReferenceIdeal.Read.idx_main_v4 i) ?_
  rewrite [Shape.rowMajor_val_one, Shape.rowMajor_val_two]
  have h0 : (i 0).val < 1 := (i 0).isLt
  show (i 1).val = (i 0).val * 1048576 + (i 1).val
  omega

/-- What the kernel leaves in its result array is the reference's result function of the launch arguments. -/
theorem kernel_result (m : (ℓ : Loc nD τ sig) → Buf (Elt Ideal) ℓ) (c : Dev nD) :
    (Pad.dat (Whole.ent1 (F := Ideal) m) c).arrAt 1 cfg1.N
      = Cert.ReferenceIdeal.Read.val_main_v20 (F := Ideal) (m ((c.tc : Thread nD τ).loc main_arg0)) (m ((c.tc : Thread nD τ).loc main_arg1))
          (m ((c.tc : Thread nD τ).loc main_arg2)) (m ((c.tc : Thread nD τ).loc main_arg3)) := by
  rw [PadValue.final, HostValue.entry_blocks, ProjValue.final, HostValue.entry_lz, HostValue.entry_U, HostValue.entry_mu,
    Cert.ReferenceIdeal.RefValue.ref_pad, zero_eq]
  congr 1
  unfold Cert.ReferenceIdeal.Read.val_main_v7
  rw [Cert.ReferenceIdeal.RefValue.ref_flat, ← row_eq]
  rfl

/-- The word-level program runs and leaves its arguments as launched. -/
theorem frame_k : Cert.frame_Kernel := fun m ρ _ => Cert.Kernel.Whole.frame (F := Bits) m ρ
/-- So does the idealized program. -/
theorem frame_ki : Cert.frame_KernelIdeal := fun m ρ _ => Cert.KernelIdeal.Whole.frame (F := Ideal) m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result function of them. -/
theorem algebraic : Cert.algebraic_KernelIdeal_ReferenceIdeal := by
  intro m ρ m' ρ' _ hagree
  refine ⟨fun c => Cert.ReferenceIdeal.Read.val_main_v20 (F := Ideal) (m ((c.tc : Thread nD τ).loc main_arg0)) (m ((c.tc : Thread nD τ).loc main_arg1))
          (m ((c.tc : Thread nD τ).loc main_arg2)) (m ((c.tc : Thread nD τ).loc main_arg3)), ?_, ?_⟩
  · exact (θ_run Cert.KernelIdeal.defs _ _).mono (fun r h c => ⟨(h c).1.trans (kernel_result m c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]

end Cert.Proof.Bridge

end
-- ==== Proof.lean ====
/-
  The certificate of the two-region kernel (the projection (L ⊙ z) · U + mu, then the block-pad of its blocks into
  zero cubes) against its reference: the three frames, the trivial idealization claim (the ideal pass rewrote
  nothing), and the equality of the results at the ideal instance. The mathematics is in Proof/Bridge.lean and the
  modules it imports.
-/
import proofs.«160098_j807453852263_1_alg».proof.Defs
import proofs.«160098_j807453852263_1_alg».proof.Proof.Gen.Kernel
import proofs.«160098_j807453852263_1_alg».proof.Proof.Gen.KernelIdeal
import proofs.«160098_j807453852263_1_alg».proof.Proof.Gen.ReferenceIdeal
import proofs.«160098_j807453852263_1_alg».proof.Proof.Gen.Pre_finite_inputs
import proofs.«160098_j807453852263_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Bridge.frame_k, Cert.Proof.Bridge.frame_ki, Cert.Proof.Bridge.frame_ri, trivial, Cert.Proof.Bridge.algebraic⟩

end Cert.Proof

end
